-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "neg_big" .f32 0xF149F2CA#32 ⊥
  ∧ IdealRules.named_const.Statement Cert.KernelIdeal.κ "neg_big" .f32 0xF149F2CA#32 ⊥
  ∧ IdealRules.named_const.Statement Cert.KernelIdeal.κ "neg_big" .f32 0xF149F2CA#32 ⊥
  ∧ IdealRules.named_const.Statement Cert.KernelIdeal.κ "neg_big" .f32 0xF149F2CA#32 ⊥
  ∧ IdealRules.named_const.Statement Cert.KernelIdeal.κ "neg_big" .f32 0xF149F2CA#32 ⊥
  ∧ IdealRules.named_const.Statement Cert.KernelIdeal.κ "neg_big" .f32 0xF149F2CA#32 ⊥
  ∧ IdealRules.named_const.Statement Cert.KernelIdeal.κ "neg_big" .f32 0xF149F2CA#32 ⊥
  ∧ IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v0) = v1 c
          ∧ r.2.mem ((c.tc : Thread Cert.ReferenceIdeal.nD Cert.ReferenceIdeal.τ).loc Cert.ReferenceIdeal.main_v2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S1024x64 : Shape := ⟨2, ![1024, 64]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S1024x64 : S_.BroadcastsInDim S1024x64 (![] : Fin 0 → Fin S1024x64.rank)
  reducesTo_S1024x64_S_d0_1 : S1024x64.ReducesTo [0, 1] S_

variable [Facts]

def fn_part1 {F : FTy → Type} [FloatOps F] (main_v13 : IVec S_ 1) (main_v16 : IVec S1024x64 1) : IVec S_ 1 :=
  let main_c_5 : IVec S_ 1 := constantI S_ 1 1#1
  let main_v17 : IVec S_ 1 := (fun x v => Host.reduce IntOp.andi x v reducesTo_S1024x64_S_d0_1 h_S_) main_v16 main_c_5
  let main_v18 : IVec S_ 1 := andi main_v13 main_v17
  main_v18

def fn {F : FTy → Type} [FloatOps F] (main_arg0 : FVec F S4x4096x1024 .f32) (main_arg1 : FVec F S1024x64 .f32) (main_arg2 : FVec F S1024x64 .f32) (main_arg3 : FVec F S1024x64 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  let main_v9 : FVec F S1024x64 .f32 := Host.absf main_arg2
  let main_cst_2 : FVec F S_ .f32 := constant S_ .f32 0x7F800000#32
  let main_v10 : FVec F S1024x64 .f32 := broadcastInDim S1024x64 ![] bcast_S_S1024x64 main_cst_2
  let main_v11 : IVec S1024x64 1 := cmpf .olt main_v9 main_v10
  let main_c_3 : IVec S_ 1 := constantI S_ 1 1#1
  let main_v12 : IVec S_ 1 := (fun x v => Host.reduce IntOp.andi x v reducesTo_S1024x64_S_d0_1 h_S_) main_v11 main_c_3
  let main_v13 : IVec S_ 1 := andi main_v8 main_v12
  let main_v14 : FVec F S1024x64 .f32 := Host.absf main_arg3
  let main_cst_4 : FVec F S_ .f32 := constant S_ .f32 0x7F800000#32
  let main_v15 : FVec F S1024x64 .f32 := broadcastInDim S1024x64 ![] bcast_S_S1024x64 main_cst_4
  let main_v16 : IVec S1024x64 1 := cmpf .olt main_v14 main_v15
  fn_part1 (F := F) main_v13 main_v16
-- ==== Kernel.lean ====
abbrev S4x4096x1024 : Shape := ⟨3, ![4, 4096, 1024]⟩
abbrev S1024x64 : Shape := ⟨2, ![1024, 64]⟩
abbrev S4x4096x64 : Shape := ⟨3, ![4, 4096, 64]⟩
abbrev S1x4096x1024 : Shape := ⟨3, ![1, 4096, 1024]⟩
abbrev S1x4096x64 : Shape := ⟨3, ![1, 4096, 64]⟩
abbrev S4096x64 : Shape := ⟨2, ![4096, 64]⟩
abbrev S512x1 : Shape := ⟨2, ![512, 1]⟩
abbrev S512x64 : Shape := ⟨2, ![512, 64]⟩
abbrev S4096x1024 : Shape := ⟨2, ![4096, 1024]⟩
abbrev S1x512x64 : Shape := ⟨3, ![1, 512, 64]⟩
abbrev S512x512 : Shape := ⟨2, ![512, 512]⟩
abbrev S512 : Shape := ⟨1, ![512]⟩

abbrev nBuf : Space → Nat
  | .hbm => 7
  | .vmem => 15
  | .smem => 0
  | _ => 0

abbrev bufTy : (tb : Table) → Fin (tcTables nBuf tb) → BufTy
  | .hbm, ⟨0, _⟩ => ⟨S4x4096x1024, .f32⟩
  | .hbm, ⟨1, _⟩ => ⟨S1024x64, .f32⟩
  | .hbm, ⟨2, _⟩ => ⟨S1024x64, .f32⟩
  | .hbm, ⟨3, _⟩ => ⟨S1024x64, .f32⟩
  | .hbm, ⟨4, _⟩ => ⟨S4x4096x64, .f32⟩
  | .hbm, ⟨5, _⟩ => ⟨S4x4096x64, .f32⟩
  | .hbm, ⟨6, _⟩ => ⟨S4x4096x64, .f32⟩
  | .local _ .vmem, ⟨0, _⟩ => ⟨S1x4096x1024, .f32⟩
  | .local _ .vmem, ⟨1, _⟩ => ⟨S1x4096x1024, .f32⟩
  | .local _ .vmem, ⟨2, _⟩ => ⟨S1024x64, .f32⟩
  | .local _ .vmem, ⟨3, _⟩ => ⟨S1024x64, .f32⟩
  | .local _ .vmem, ⟨4, _⟩ => ⟨S1024x64, .f32⟩
  | .local _ .vmem, ⟨5, _⟩ => ⟨S1x4096x64, .f32⟩
  | .local _ .vmem, ⟨6, _⟩ => ⟨S1x4096x64, .f32⟩
  | .local _ .vmem, ⟨7, _⟩ => ⟨S1x4096x64, .f32⟩
  | .local _ .vmem, ⟨8, _⟩ => ⟨S1x4096x64, .f32⟩
  | .local _ .vmem, ⟨9, _⟩ => ⟨S1x4096x64, .f32⟩
  | .local _ .vmem, ⟨10, _⟩ => ⟨S1x4096x64, .f32⟩
  | .local _ .vmem, ⟨11, _⟩ => ⟨S4096x64, .f32⟩
  | .local _ .vmem, ⟨12, _⟩ => ⟨S512x1, .f32⟩
  | .local _ .vmem, ⟨13, _⟩ => ⟨S512x1, .f32⟩
  | .local _ .vmem, ⟨14, _⟩ => ⟨S512x64, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x4096x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4096x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x4096x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  inb_S1x4096x1024_S1x4096x1024_0_0_0 : ∀ a, (![0, 0, 0] : Fin 3 → Nat) a + S1x4096x1024.size a ≤ S1x4096x1024.size a
  h_S1x4096x1024 : 0 < S1x4096x1024.numel
  shapeCasts_S1x4096x1024_S4096x1024 : S1x4096x1024.ShapeCasts S4096x1024
  inb_S1024x64_S1024x64_0_0 : ∀ a, (![0, 0] : Fin 2 → Nat) a + S1024x64.size a ≤ S1024x64.size a
  h_S1024x64 : 0 < S1024x64.numel
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  inb_S1x4096x64_S1x4096x64_0_0_0 : ∀ a, (![0, 0, 0] : Fin 3 → Nat) a + S1x4096x64.size a ≤ S1x4096x64.size a
  h_S1x4096x64 : 0 < S1x4096x64.numel
  shapeCasts_S1x4096x64_S4096x64 : S1x4096x64.ShapeCasts S4096x64
  shapeCasts_S4096x64_S1x4096x64 : S4096x64.ShapeCasts S1x4096x64
  inb_S4096x64_S512x64_0_0 : ∀ a, (![0, 0] : Fin 2 → Nat) a + S512x64.size a ≤ S4096x64.size a
  h_S512x64 : 0 < S512x64.numel
  bitsLt_bf16_f32 : FTy.bits .bf16 < FTy.bits .f32
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x64_S512x64_0_0 : ∀ a, (![0, 0] : Fin 2 → Nat) a + S512x64.size a ≤ S512x64.size a
  shapeCasts_S512x64_S512x64 : S512x64.ShapeCasts S512x64
  inb_S1x4096x64_S1x512x64_0_0_0 : ∀ a, (![0, 0, 0] : Fin 3 → Nat) a + S1x512x64.size a ≤ S1x4096x64.size a
  h_S1x512x64 : 0 < S1x512x64.numel
  shapeCasts_S1x512x64_S512x64 : S1x512x64.ShapeCasts S512x64
  iota_S512x512_d0_w32 : S512x512.Iotas .tc 32 [0]
  iota_S512x512_d1_w32 : S512x512.Iotas .tc 32 [1]
  reduces_S512x512_S512 : S512x512.Reduces [1] S512
  shapeCasts_S512_S512x1 : S512.ShapeCasts S512x1
  broadcasts_S512x1_S512x512 : S512x1.Broadcasts S512x512
  broadcasts_S512x1_S512x64 : S512x1.Broadcasts S512x64
  shapeCasts_S512x64_S1x512x64 : S512x64.ShapeCasts S1x512x64
  inb_S4096x64_S512x64_512_0 : ∀ a, (![512, 0] : Fin 2 → Nat) a + S512x64.size a ≤ S4096x64.size a
  inb_S1x4096x64_S1x512x64_0_512_0 : ∀ a, (![0, 512, 0] : Fin 3 → Nat) a + S1x512x64.size a ≤ S1x4096x64.size a
  inb_S4096x64_S512x64_1024_0 : ∀ a, (![1024, 0] : Fin 2 → Nat) a + S512x64.size a ≤ S4096x64.size a
  inb_S1x4096x64_S1x512x64_0_1024_0 : ∀ a, (![0, 1024, 0] : Fin 3 → Nat) a + S1x512x64.size a ≤ S1x4096x64.size a
  inb_S4096x64_S512x64_1536_0 : ∀ a, (![1536, 0] : Fin 2 → Nat) a + S512x64.size a ≤ S4096x64.size a
  inb_S1x4096x64_S1x512x64_0_1536_0 : ∀ a, (![0, 1536, 0] : Fin 3 → Nat) a + S1x512x64.size a ≤ S1x4096x64.size a
  inb_S4096x64_S512x64_2048_0 : ∀ a, (![2048, 0] : Fin 2 → Nat) a + S512x64.size a ≤ S4096x64.size a
  inb_S1x4096x64_S1x512x64_0_2048_0 : ∀ a, (![0, 2048, 0] : Fin 3 → Nat) a + S1x512x64.size a ≤ S1x4096x64.size a
  inb_S4096x64_S512x64_2560_0 : ∀ a, (![2560, 0] : Fin 2 → Nat) a + S512x64.size a ≤ S4096x64.size a
  inb_S1x4096x64_S1x512x64_0_2560_0 : ∀ a, (![0, 2560, 0] : Fin 3 → Nat) a + S1x512x64.size a ≤ S1x4096x64.size a
  inb_S4096x64_S512x64_3072_0 : ∀ a, (![3072, 0] : Fin 2 → Nat) a + S512x64.size a ≤ S4096x64.size a
  inb_S1x4096x64_S1x512x64_0_3072_0 : ∀ a, (![0, 3072, 0] : Fin 3 → Nat) a + S1x512x64.size a ≤ S1x4096x64.size a
  inb_S4096x64_S512x64_3584_0 : ∀ a, (![3584, 0] : Fin 2 → Nat) a + S512x64.size a ≤ S4096x64.size a
  inb_S1x4096x64_S1x512x64_0_3584_0 : ∀ a, (![0, 3584, 0] : Fin 3 → Nat) a + S1x512x64.size a ≤ S1x4096x64.size a
  dot_S4096x1024_S1024x64_S4096x64_1_0_0_1_n_n_wf : DotDims.WF S4096x1024 S1024x64 S4096x64 [1] [0] [0] [1] [] []
  dot_S512x64_S512x64_S512x512_1_1_0_0_n_n_wf : DotDims.WF S512x64 S512x64 S512x512 [1] [1] [0] [0] [] []
  dot_S512x512_S512x64_S512x64_1_0_0_1_n_n_wf : DotDims.WF S512x512 S512x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x1024.size a ≤ S4x4096x1024.size a
  hwx0_0 : ∀ i : grid0.Coords, EltTy.bits .f32 = 32 ∨ (Rect.block (s := S4x4096x1024) S1x4096x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S1024x64.size a
  hwx0_1 : ∀ i : grid0.Coords, EltTy.bits .f32 = 32 ∨ (Rect.block (s := S1024x64) S1024x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x64.size a ≤ S1024x64.size a
  hwx0_2 : ∀ i : grid0.Coords, EltTy.bits .f32 = 32 ∨ (Rect.block (s := S1024x64) S1024x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x64.size a ≤ S1024x64.size a
  hwx0_3 : ∀ i : grid0.Coords, EltTy.bits .f32 = 32 ∨ (Rect.block (s := S1024x64) S1024x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x4096x64.size a ≤ S4x4096x64.size a
  hwx0_4 : ∀ i : grid0.Coords, EltTy.bits .f32 = 32 ∨ (Rect.block (s := S4x4096x64) S1x4096x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x4096x64.size a ≤ S4x4096x64.size a
  hwx0_5 : ∀ i : grid0.Coords, EltTy.bits .f32 = 32 ∨ (Rect.block (s := S4x4096x64) S1x4096x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x4096x64.size a ≤ S4x4096x64.size a
  hwx0_6 : ∀ i : grid0.Coords, EltTy.bits .f32 = 32 ∨ (Rect.block (s := S4x4096x64) S1x4096x64.size (cc0_transform_6 i) (hinb0_6 i)).WholeWords (EltTy.packing .f32)

variable [Facts₀]

def dot_S4096x1024_S1024x64_S4096x64_1_0_0_1_n_n : DotDims S4096x1024 S1024x64 S4096x64 where
  lhsContracting := [1]
  rhsContracting := [0]
  lhsNonContracting := [0]
  rhsNonContracting := [1]
  lhsBatch := []
  rhsBatch := []
  wf := dot_S4096x1024_S1024x64_S4096x64_1_0_0_1_n_n_wf
def dot_S512x64_S512x64_S512x512_1_1_0_0_n_n : DotDims S512x64 S512x64 S512x512 where
  lhsContracting := [1]
  rhsContracting := [1]
  lhsNonContracting := [0]
  rhsNonContracting := [0]
  lhsBatch := []
  rhsBatch := []
  wf := dot_S512x64_S512x64_S512x512_1_1_0_0_n_n_wf
def dot_S512x512_S512x64_S512x64_1_0_0_1_n_n : DotDims S512x512 S512x64 S512x64 where
  lhsContracting := [1]
  rhsContracting := [0]
  lhsNonContracting := [0]
  rhsNonContracting := [1]
  lhsBatch := []
  rhsBatch := []
  wf := dot_S512x512_S512x64_S512x64_1_0_0_1_n_n_wf

abbrev win0_0 : Pipeline.Window sig grid0 :=
  Pipeline.Window.ofSpec (Memref.whole main_arg0) S1x4096x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1024x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1x4096x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1x4096x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_2) S1x4096x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4x4096x1024 : Shape := ⟨3, ![4, 4096, 1024]⟩
abbrev S1024x64 : Shape := ⟨2, ![1024, 64]⟩
abbrev S4x4096x64 : Shape := ⟨3, ![4, 4096, 64]⟩
abbrev S4x4096x4096 : Shape := ⟨3, ![4, 4096, 4096]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S1x4096x4096 : Shape := ⟨3, ![1, 4096, 4096]⟩
abbrev S4x4096 : Shape := ⟨2, ![4, 4096]⟩
abbrev S4x4096x1 : Shape := ⟨3, ![4, 4096, 1]⟩

abbrev nBuf : Space → Nat
  | .hbm => 40
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x64, .f32⟩
  | .hbm, ⟨2, _⟩ => ⟨S1024x64, .f32⟩
  | .hbm, ⟨3, _⟩ => ⟨S1024x64, .f32⟩
  | .hbm, ⟨4, _⟩ => ⟨S4x4096x64, .f32⟩
  | .hbm, ⟨5, _⟩ => ⟨S4x4096x64, .f32⟩
  | .hbm, ⟨6, _⟩ => ⟨S4x4096x64, .f32⟩
  | .hbm, ⟨7, _⟩ => ⟨S4x4096x4096, .f32⟩
  | .hbm, ⟨8, _⟩ => ⟨S_, .f32⟩
  | .hbm, ⟨9, _⟩ => ⟨S_, .f32⟩
  | .hbm, ⟨10, _⟩ => ⟨S4x4096x4096, .f32⟩
  | .hbm, ⟨11, _⟩ => ⟨S4x4096x4096, .f32⟩
  | .hbm, ⟨12, _⟩ => ⟨S4096, .i32⟩
  | .hbm, ⟨13, _⟩ => ⟨S4096x1, .i32⟩
  | .hbm, ⟨14, _⟩ => ⟨S4096, .i32⟩
  | .hbm, ⟨15, _⟩ => ⟨S1x4096, .i32⟩
  | .hbm, ⟨16, _⟩ => ⟨S4096x4096, .i32⟩
  | .hbm, ⟨17, _⟩ => ⟨S4096x4096, .i32⟩
  | .hbm, ⟨18, _⟩ => ⟨S4096x4096, .i1⟩
  | .hbm, ⟨19, _⟩ => ⟨S1x4096x4096, .i1⟩
  | .hbm, ⟨20, _⟩ => ⟨S_, .f32⟩
  | .hbm, ⟨21, _⟩ => ⟨S_, .f32⟩
  | .hbm, ⟨22, _⟩ => ⟨S4x4096x4096, .i1⟩
  | .hbm, ⟨23, _⟩ => ⟨S4x4096x4096, .f32⟩
  | .hbm, ⟨24, _⟩ => ⟨S4x4096x4096, .f32⟩
  | .hbm, ⟨25, _⟩ => ⟨S_, .f32⟩
  | .hbm, ⟨26, _⟩ => ⟨S4x4096, .f32⟩
  | .hbm, ⟨27, _⟩ => ⟨S_, .f32⟩
  | .hbm, ⟨28, _⟩ => ⟨S4x4096, .f32⟩
  | .hbm, ⟨29, _⟩ => ⟨S4x4096, .f32⟩
  | .hbm, ⟨30, _⟩ => ⟨S4x4096x1, .f32⟩
  | .hbm, ⟨31, _⟩ => ⟨S4x4096x4096, .f32⟩
  | .hbm, ⟨32, _⟩ => ⟨S4x4096x4096, .f32⟩
  | .hbm, ⟨33, _⟩ => ⟨S4x4096x4096, .f32⟩
  | .hbm, ⟨34, _⟩ => ⟨S_, .f32⟩
  | .hbm, ⟨35, _⟩ => ⟨S4x4096, .f32⟩
  | .hbm, ⟨36, _⟩ => ⟨S4x4096x1, .f32⟩
  | .hbm, ⟨37, _⟩ => ⟨S4x4096x4096, .f32⟩
  | .hbm, ⟨38, _⟩ => ⟨S4x4096x4096, .f32⟩
  | .hbm, ⟨39, _⟩ => ⟨S4x4096x64, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩

abbrev nD : Nat := 1
abbrev τ : Topo := Topo.v7x

variable {F : FTy → Type} [FloatOps F]

class Facts₀ : Prop where
  bcast_S_S4x4096x4096 : S_.BroadcastsInDim S4x4096x4096 (![] : Fin 0 → Fin S4x4096x4096.rank)
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S4096x4096_S1x4096x4096_1_2 : S4096x4096.BroadcastsInDim S1x4096x4096 (![1, 2] : Fin 2 → Fin S1x4096x4096.rank)
  bcast_S1x4096x4096_S4x4096x4096_0_1_2 : S1x4096x4096.BroadcastsInDim S4x4096x4096 (![0, 1, 2] : Fin 3 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  dot_S4x4096x1024_S1024x64_S4x4096x64_2_0_01_1_n_n_wf : DotDims.WF S4x4096x1024 S1024x64 S4x4096x64 [2] [0] [0, 1] [1] [] []
  dot_S4x4096x64_S4x4096x64_S4x4096x4096_2_2_1_1_0_0_wf : DotDims.WF S4x4096x64 S4x4096x64 S4x4096x4096 [2] [2] [1] [1] [0] [0]
  dot_S4x4096x4096_S4x4096x64_S4x4096x64_2_1_1_2_0_0_wf : DotDims.WF S4x4096x4096 S4x4096x64 S4x4096x64 [2] [1] [1] [2] [0] [0]

variable [Facts₀]

def dot_S4x4096x1024_S1024x64_S4x4096x64_2_0_01_1_n_n : DotDims S4x4096x1024 S1024x64 S4x4096x64 where
  lhsContracting := [2]
  rhsContracting := [0]
  lhsNonContracting := [0, 1]
  rhsNonContracting := [1]
  lhsBatch := []
  rhsBatch := []
  wf := dot_S4x4096x1024_S1024x64_S4x4096x64_2_0_01_1_n_n_wf
def dot_S4x4096x64_S4x4096x64_S4x4096x4096_2_2_1_1_0_0 : DotDims S4x4096x64 S4x4096x64 S4x4096x4096 where
  lhsContracting := [2]
  rhsContracting := [2]
  lhsNonContracting := [1]
  rhsNonContracting := [1]
  lhsBatch := [0]
  rhsBatch := [0]
  wf := dot_S4x4096x64_S4x4096x64_S4x4096x4096_2_2_1_1_0_0_wf
def dot_S4x4096x4096_S4x4096x64_S4x4096x64_2_1_1_2_0_0 : DotDims S4x4096x4096 S4x4096x64 S4x4096x64 where
  lhsContracting := [2]
  rhsContracting := [1]
  lhsNonContracting := [1]
  rhsNonContracting := [2]
  lhsBatch := [0]
  rhsBatch := [0]
  wf := dot_S4x4096x4096_S4x4096x64_S4x4096x64_2_1_1_2_0_0_wf

class Facts : Prop extends Facts₀ where

variable [Facts]
-- ==== Proof.TileDefs.lean ====
/-
  The kernel body's arithmetic for one tile of 512 query rows, written once over the vector operations, and the blocks of
  the stored projections it loads.
-/
import proofs.«410186_j39256001085546_3_alg».proof.Proof.Gen.KernelIdeal
import Idealize.ShloMosaic.Lib.Pipeline.Value
import Idealize.ShloMosaic.Lib.Pipeline.FrameBody

set_option maxRecDepth 16384

noncomputable section

namespace Cert.KernelIdeal.Attn

open Cert.KernelIdeal Cert.KernelIdeal.Gen
open Idealize.ShloMosaic Idealize.ShloMosaic.TcCoe

/-! The kernel body's recurrence, written once over the vector operations: for one tile of 512 query rows the running
    maximum m, the running normaliser l and the running weighted sum acc are updated block of keys by block of keys,
    and the tile's result is acc / l. -/

theorem zeros2 : (![0, 0] : Fin 2 → Nat) = fun _ => 0 := by funext a; fin_cases a <;> rfl
theorem zeros3 : (![0, 0, 0] : Fin 3 → Nat) = fun _ => 0 := by funext a; fin_cases a <;> rfl

/-- A load of any box after ONE store of the whole buffer reads the stored function at the box's indices. -/
theorem readCov_whole {Val : EltTy → Type} [∀ e, Nonempty (Val e)] {sig : RefSig} {κ : Kind} {sp : Space} {S : Shape} {e : EltTy}
    (v : View sig κ sp S e) {off : Fin S.rank → Nat} (h : off = fun _ => 0)
    (inb : ∀ a, off a + S.size a ≤ S.size a) (w : S.Idx → Val e) (B : LoadRect S) :
    v.readCov [(⟨Rect.unit off S.size inb, w⟩ : View.Piece Val S e)] B = fun j => w (B.idx j) := by
  rw [View.readCov_eq_canon']; funext j; rw [View.canon_unit_zero h]

/-- A load of the whole of an input buffer reads the block it holds. -/
theorem readAt_unread {Val : EltTy → Type} {sig : RefSig} {κ : Kind} {sp : Space} {S : Shape} {e : EltTy}
    (m : Memref sig κ sp S e) (hm : m.IsWhole) (x : S.Idx → Val e) {off : Fin S.rank → Nat} (h : off = fun _ => 0)
    (inb : ∀ a, off a + S.size a ≤ S.size a) :
    View.readAt Val m.view (Rect.unit off S.size inb).toLoadRect (hm.unread x) = x := by
  rw [View.readAt_eq_ld, hm.read_unread]; exact View.ld_unit_zero h inb x

variable {F : FTy → Type} [FloatOps F] [Named F]

/-- The scaled scores of a tile of queries against a block of keys: q · kᵀ / 8. -/
def scoreT (qb : FVec F S512x64 .bf16) (kb : Vec F S1x512x64 .f32) : FVec F S512x512 .f32 :=
  mulf (matmul dot_S512x64_S512x64_S512x512_1_1_0_0_n_n none qb
      (truncf .bf16 (shapeCast S512x64 kb shapeCasts_S1x512x64_S512x64) bitsLt_bf16_f32) (constant S512x512 .f32 0x00000000#32))
    (broadcast S512x512 (Scalar.ofBits .f32 0x3E000000#32))

/-- The causal mask on the diagonal block: entry (r, k) keeps its score when off + r ≥ off + k, else the named -∞. -/
def maskT (off : BitVec 32) (s : FVec F S512x512 .f32) : FVec F S512x512 .f32 :=
  select (cmpi .sge (addi (broadcast S512x512 off) (iota .tc S512x512 32 [0] iota_S512x512_d0_w32))
      (addi (broadcast S512x512 off) (iota .tc S512x512 32 [1] iota_S512x512_d1_w32))) s
    (broadcast S512x512 (Named.named κ "neg_big" 0xF149F2CA#32))

def rowMax (s : FVec F S512x512 .f32) : FVec F S512x1 .f32 :=
  shapeCast S512x1 (multiReduction .maximumf [1] S512 s 0xFF800000#32 reduces_S512x512_S512 (.inl rfl) rfl) shapeCasts_S512_S512x1
def rowSum (p : FVec F S512x512 .f32) : FVec F S512x1 .f32 :=
  shapeCast S512x1 (multiReduction .add [1] S512 p 0x00000000#32 reduces_S512x512_S512 (.inl rfl) rfl) shapeCasts_S512_S512x1
def mNew (s : FVec F S512x512 .f32) (m : FVec F S512x1 .f32) : FVec F S512x1 .f32 := maximumf m (rowMax s)
def aOf (s : FVec F S512x512 .f32) (m : FVec F S512x1 .f32) : FVec F S512x1 .f32 := exp (subf m (mNew s m))
def pOf (s : FVec F S512x512 .f32) (m : FVec F S512x1 .f32) : FVec F S512x512 .f32 :=
  exp (subf s (broadcastTo S512x512 (mNew s m) broadcasts_S512x1_S512x512))
def lNew (s : FVec F S512x512 .f32) (m l : FVec F S512x1 .f32) : FVec F S512x1 .f32 :=
  addf (mulf (aOf s m) l) (rowSum (pOf s m))
def accNew (s : FVec F S512x512 .f32) (m : FVec F S512x1 .f32) (acc : FVec F S512x64 .f32) (vb : Vec F S1x512x64 .f32) : FVec F S512x64 .f32 :=
  addf (mulf (broadcastTo S512x64 (aOf s m) broadcasts_S512x1_S512x64) acc)
    (matmul dot_S512x512_S512x64_S512x64_1_0_0_1_n_n none (truncf .bf16 (pOf s m) bitsLt_bf16_f32)
      (truncf .bf16 (shapeCast S512x64 vb shapeCasts_S1x512x64_S512x64) bitsLt_bf16_f32) (constant S512x64 .f32 0x00000000#32))

/-- The three running quantities, as the scratch buffers hold them. -/
structure St (F : FTy → Type) where
  m : FVec F S512x1 .f32
  l : FVec F S512x1 .f32
  acc : FVec F S512x64 .f32

def st0 : St F :=
  ⟨shapeCast S512x1 (broadcast S512x1 (Scalar.ofBits .f32 0xFF800000#32)) shapeCasts_S512x1_S512x1,
   shapeCast S512x1 (broadcast S512x1 (Scalar.ofBits .f32 0x00000000#32)) shapeCasts_S512x1_S512x1,
   shapeCast S512x64 (broadcast S512x64 (Scalar.ofBits .f32 0x00000000#32)) shapeCasts_S512x64_S512x64⟩

def stepS (s : FVec F S512x512 .f32) (vb : Vec F S1x512x64 .f32) (st : St F) : St F :=
  ⟨shapeCast S512x1 (mNew s st.m) shapeCasts_S512x1_S512x1,
   shapeCast S512x1 (lNew s st.m st.l) shapeCasts_S512x1_S512x1,
   shapeCast S512x64 (accNew s st.m st.acc vb) shapeCasts_S512x64_S512x64⟩

/-- The state after the first n (unmasked) blocks of keys. -/
def stateN (qb : FVec F S512x64 .bf16) (kb vb : ℕ → Vec F S1x512x64 .f32) : ℕ → St F
  | 0 => st0
  | n + 1 => stepS (scoreT qb (kb n)) (vb n) (stateN qb kb vb n)

/-- The tile's result: n whole blocks, then the masked diagonal block n, then acc / l. -/
def tileOut (n : ℕ) (off : BitVec 32) (qb : FVec F S512x64 .bf16) (kb vb : ℕ → Vec F S1x512x64 .f32) : FVec F S1x512x64 .f32 :=
  let st := stepS (maskT off (scoreT qb (kb n))) (vb n) (stateN qb kb vb n)
  shapeCast S1x512x64 (divf st.acc (broadcastTo S512x64 st.l broadcasts_S512x1_S512x64)) shapeCasts_S512x64_S1x512x64

/-- A load after one store of a whole rank-2 / rank-3 buffer, and a whole load of an input block, in the spelling the run has. -/
theorem readCov_whole2 {Val : EltTy → Type} [∀ e, Nonempty (Val e)] {sig : RefSig} {κ : Kind} {sp : Space} {sz : Fin 2 → ℕ} {e : EltTy}
    (v : View sig κ sp (⟨2, sz⟩ : Shape) e) (inb : ∀ a, (![0, 0] : Fin 2 → ℕ) a + sz a ≤ sz a) (w : (⟨2, sz⟩ : Shape).Idx → Val e)
    (B : LoadRect (⟨2, sz⟩ : Shape)) :
    v.readCov [(⟨Rect.unit (s := (⟨2, sz⟩ : Shape)) ![0, 0] sz inb, w⟩ : View.Piece Val (⟨2, sz⟩ : Shape) e)] B = fun j => w (B.idx j) :=
  readCov_whole v zeros2 inb w B
theorem readCov_whole3 {Val : EltTy → Type} [∀ e, Nonempty (Val e)] {sig : RefSig} {κ : Kind} {sp : Space} {sz : Fin 3 → ℕ} {e : EltTy}
    (v : View sig κ sp (⟨3, sz⟩ : Shape) e) (inb : ∀ a, (![0, 0, 0] : Fin 3 → ℕ) a + sz a ≤ sz a) (w : (⟨3, sz⟩ : Shape).Idx → Val e)
    (B : LoadRect (⟨3, sz⟩ : Shape)) :
    v.readCov [(⟨Rect.unit (s := (⟨3, sz⟩ : Shape)) ![0, 0, 0] sz inb, w⟩ : View.Piece Val (⟨3, sz⟩ : Shape) e)] B = fun j => w (B.idx j) :=
  readCov_whole v zeros3 inb w B
theorem readAt_unread2 {Val : EltTy → Type} {sig : RefSig} {κ : Kind} {sp : Space} {sz : Fin 2 → ℕ} {e : EltTy}
    (m : Memref sig κ sp (⟨2, sz⟩ : Shape) e) (hm : m.IsWhole) (x : (⟨2, sz⟩ : Shape).Idx → Val e)
    (inb : ∀ a, (![0, 0] : Fin 2 → ℕ) a + sz a ≤ sz a) :
    View.readAt Val m.view (Rect.unit (s := (⟨2, sz⟩ : Shape)) ![0, 0] sz inb).toLoadRect (hm.unread x) = x :=
  readAt_unread m hm x zeros2 inb
theorem readAt_unread3 {Val : EltTy → Type} {sig : RefSig} {κ : Kind} {sp : Space} {sz : Fin 3 → ℕ} {e : EltTy}
    (m : Memref sig κ sp (⟨3, sz⟩ : Shape) e) (hm : m.IsWhole) (x : (⟨3, sz⟩ : Shape).Idx → Val e)
    (inb : ∀ a, (![0, 0, 0] : Fin 3 → ℕ) a + sz a ≤ sz a) :
    View.readAt Val m.view (Rect.unit (s := (⟨3, sz⟩ : Shape)) ![0, 0, 0] sz inb).toLoadRect (hm.unread x) = x :=
  readAt_unread m hm x zeros3 inb

/-- Open, in the goal, every payload name of the kernel body (the constants k0_pay1, k0_pay2, …) to its body. -/
elab "unfold_payloads" : tactic => do
  let g ← Lean.Elab.Tactic.getMainGoal
  let isPay (n : Lean.Name) : Bool := match n with
    | .str _ last => last.startsWith "k0_pay"
    | _ => false
  let t ← Lean.instantiateMVars (← g.getType)
  let t' ← Lean.Meta.deltaExpand t isPay
  Lean.Elab.Tactic.replaceMainGoal [← g.replaceTargetDefEq t']

/-- The three projections as the body stores them: x · W with the leading unit axis dropped and, for keys and values, restored. -/
def Qf (x0 : Vec F S1x4096x1024 .f32) (w : Vec F S1024x64 .f32) : FVec F S4096x64 .f32 :=
  shapeCast S4096x64 (matmul dot_S4096x1024_S1024x64_S4096x64_1_0_0_1_n_n none
    (shapeCast S4096x1024 x0 shapeCasts_S1x4096x1024_S4096x1024) w (constant S4096x64 .f32 0x00000000#32)) shapeCasts_S4096x64_S4096x64
def KVf (x0 : Vec F S1x4096x1024 .f32) (w : Vec F S1024x64 .f32) : FVec F S1x4096x64 .f32 :=
  shapeCast S1x4096x64 (matmul dot_S4096x1024_S1024x64_S4096x64_1_0_0_1_n_n none
    (shapeCast S4096x1024 x0 shapeCasts_S1x4096x1024_S4096x1024) w (constant S4096x64 .f32 0x00000000#32)) shapeCasts_S4096x64_S1x4096x64

/-- Block n of 512 rows of the stored queries, and of the stored keys or values, as the body loads them. -/
def qbL (Q : FVec F S4096x64 .f32) : ℕ → FVec F S512x64 .f32
  | 1 => fun j => Q ((Rect.unit (s := S4096x64) ![512, 0] S512x64.size inb_S4096x64_S512x64_512_0).toLoadRect.idx j)
  | 2 => fun j => Q ((Rect.unit (s := S4096x64) ![1024, 0] S512x64.size inb_S4096x64_S512x64_1024_0).toLoadRect.idx j)
  | 3 => fun j => Q ((Rect.unit (s := S4096x64) ![1536, 0] S512x64.size inb_S4096x64_S512x64_1536_0).toLoadRect.idx j)
  | 4 => fun j => Q ((Rect.unit (s := S4096x64) ![2048, 0] S512x64.size inb_S4096x64_S512x64_2048_0).toLoadRect.idx j)
  | 5 => fun j => Q ((Rect.unit (s := S4096x64) ![2560, 0] S512x64.size inb_S4096x64_S512x64_2560_0).toLoadRect.idx j)
  | 6 => fun j => Q ((Rect.unit (s := S4096x64) ![3072, 0] S512x64.size inb_S4096x64_S512x64_3072_0).toLoadRect.idx j)
  | 7 => fun j => Q ((Rect.unit (s := S4096x64) ![3584, 0] S512x64.size inb_S4096x64_S512x64_3584_0).toLoadRect.idx j)
  | _ => fun j => Q ((Rect.unit (s := S4096x64) ![0, 0] S512x64.size inb_S4096x64_S512x64_0_0).toLoadRect.idx j)
def kbL (K : FVec F S1x4096x64 .f32) : ℕ → Vec F S1x512x64 .f32
  | 1 => fun j => K ((Rect.unit (s := S1x4096x64) ![0, 512, 0] S1x512x64.size inb_S1x4096x64_S1x512x64_0_512_0).toLoadRect.idx j)
  | 2 => fun j => K ((Rect.unit (s := S1x4096x64) ![0, 1024, 0] S1x512x64.size inb_S1x4096x64_S1x512x64_0_1024_0).toLoadRect.idx j)
  | 3 => fun j => K ((Rect.unit (s := S1x4096x64) ![0, 1536, 0] S1x512x64.size inb_S1x4096x64_S1x512x64_0_1536_0).toLoadRect.idx j)
  | 4 => fun j => K ((Rect.unit (s := S1x4096x64) ![0, 2048, 0] S1x512x64.size inb_S1x4096x64_S1x512x64_0_2048_0).toLoadRect.idx j)
  | 5 => fun j => K ((Rect.unit (s := S1x4096x64) ![0, 2560, 0] S1x512x64.size inb_S1x4096x64_S1x512x64_0_2560_0).toLoadRect.idx j)
  | 6 => fun j => K ((Rect.unit (s := S1x4096x64) ![0, 3072, 0] S1x512x64.size inb_S1x4096x64_S1x512x64_0_3072_0).toLoadRect.idx j)
  | 7 => fun j => K ((Rect.unit (s := S1x4096x64) ![0, 3584, 0] S1x512x64.size inb_S1x4096x64_S1x512x64_0_3584_0).toLoadRect.idx j)
  | _ => fun j => K ((Rect.unit (s := S1x4096x64) ![0, 0, 0] S1x512x64.size inb_S1x4096x64_S1x512x64_0_0_0).toLoadRect.idx j)

/-- Tile n of the output as a function of the input blocks. -/
def tileOf (n : ℕ) (off : BitVec 32) (x0 : Vec F S1x4096x1024 .f32) (x1 x2 x3 : Vec F S1024x64 .f32) : FVec F S1x512x64 .f32 :=
  tileOut n off (truncf .bf16 (qbL (Qf x0 x1) n) bitsLt_bf16_f32) (kbL (KVf x0 x2)) (kbL (KVf x0 x3))

end Cert.KernelIdeal.Attn

end
-- ==== Proof.TileRun.lean ====
/-
  What the body's run leaves in the three output buffers, in closed form: the attention output as eight tiles, each the
  online-softmax recurrence over its blocks of keys; the keys and the values as one whole store each.
  The run names every loaded and computed value; opening the names, a load of a scratch buffer reads the store just
  before it and a load of a block of the stored projections reads the projection at the block's rows.
-/
import proofs.«410186_j39256001085546_3_alg».proof.Proof.Gen.KernelIdeal.Frame
import proofs.«410186_j39256001085546_3_alg».proof.Proof.TileDefs

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

variable (c : Dev nD) (i : grid0.Coords)
  (arg1 : Memref sig .tc .vmem S1x4096x1024 .f32) (harg1 : arg1.IsWhole)
  (arg2 : Memref sig .tc .vmem S1024x64 .f32) (harg2 : arg2.IsWhole)
  (arg3 : Memref sig .tc .vmem S1024x64 .f32) (harg3 : arg3.IsWhole)
  (arg4 : Memref sig .tc .vmem S1024x64 .f32) (harg4 : arg4.IsWhole)
  (arg5 : Memref sig .tc .vmem S1x4096x64 .f32) (harg5 : arg5.IsWhole)
  (arg6 : Memref sig .tc .vmem S1x4096x64 .f32) (harg6 : arg6.IsWhole)
  (arg7 : Memref sig .tc .vmem S1x4096x64 .f32) (harg7 : arg7.IsWhole)
  (arg8 : Memref sig .tc .vmem S4096x64 .f32) (harg8 : arg8.IsWhole)
  (arg9 : Memref sig .tc .vmem S512x1 .f32) (harg9 : arg9.IsWhole)
  (arg10 : Memref sig .tc .vmem S512x1 .f32) (harg10 : arg10.IsWhole)
  (arg11 : Memref sig .tc .vmem S512x64 .f32) (harg11 : arg11.IsWhole)
  (x0 : Vec F S1x4096x1024 .f32) (x1 : Vec F S1024x64 .f32) (x2 : Vec F S1024x64 .f32) (x3 : Vec F S1024x64 .f32)

set_option maxHeartbeats 4000000 in
/-- Tile 0: the run's names for it, opened, are the recurrence over block 0 alone. -/
theorem tile0_eq :
    kernelRun0_A.sl.v84 c arg1 harg1 arg2 harg2 arg3 harg3 arg4 harg4 arg6 arg7 arg8 arg9 arg10 arg11 x0 x1 x2 x3
      = tileOf 0 0#32 x0 x1 x2 x3 := by
  sl_unfold_run_names
  unfold_payloads
  simp only [View.readCov_cons_toLoadRect, readCov_whole2, readCov_whole3, readAt_unread2, readAt_unread3]
  rfl

set_option maxHeartbeats 4000000 in
/-- Tile 1: block 0 whole, then the masked block 1. -/
theorem tile1_eq :
    kernelRun0_A.sl.v190 c arg1 harg1 arg2 harg2 arg3 harg3 arg4 harg4 arg6 arg7 arg8 arg9 arg10 arg11 x0 x1 x2 x3
      = tileOf 1 512#32 x0 x1 x2 x3 := by
  sl_unfold_run_names
  unfold_payloads
  simp only [View.readCov_cons_toLoadRect, readCov_whole2, readCov_whole3, readAt_unread2, readAt_unread3]
  rfl

set_option maxHeartbeats 4000000 in
/-- Tile 2: blocks 0 and 1 whole, then the masked block 2. -/
theorem tile2_eq :
    kernelRun0_A.sl.v334 c arg1 harg1 arg2 harg2 arg3 harg3 arg4 harg4 arg6 arg7 arg8 arg9 arg10 arg11 x0 x1 x2 x3
      = tileOf 2 1024#32 x0 x1 x2 x3 := by
  sl_unfold_run_names
  unfold_payloads
  simp only [View.readCov_cons_toLoadRect, readCov_whole2, readCov_whole3, readAt_unread2, readAt_unread3]
  rfl

set_option maxHeartbeats 4000000 in
/-- Tile 3: blocks 0 to 2 whole, then the masked block 3. -/
theorem tile3_eq :
    kernelRun0_A.sl.v516 c arg1 harg1 arg2 harg2 arg3 harg3 arg4 harg4 arg6 arg7 arg8 arg9 arg10 arg11 x0 x1 x2 x3
      = tileOf 3 1536#32 x0 x1 x2 x3 := by
  sl_unfold_run_names
  unfold_payloads
  simp only [View.readCov_cons_toLoadRect, readCov_whole2, readCov_whole3, readAt_unread2, readAt_unread3]
  rfl

set_option maxHeartbeats 4000000 in
/-- Tile 4: blocks 0 to 3 whole, then the masked block 4. -/
theorem tile4_eq :
    kernelRun0_A.sl.v736 c arg1 harg1 arg2 harg2 arg3 harg3 arg4 harg4 arg6 arg7 arg8 arg9 arg10 arg11 x0 x1 x2 x3
      = tileOf 4 2048#32 x0 x1 x2 x3 := by
  sl_unfold_run_names
  unfold_payloads
  simp only [View.readCov_cons_toLoadRect, readCov_whole2, readCov_whole3, readAt_unread2, readAt_unread3]
  rfl

set_option maxHeartbeats 4000000 in
/-- Tile 5: blocks 0 to 4 whole, then the masked block 5. -/
theorem tile5_eq :
    kernelRun0_A.sl.v994 c arg1 harg1 arg2 harg2 arg3 harg3 arg4 harg4 arg6 arg7 arg8 arg9 arg10 arg11 x0 x1 x2 x3
      = tileOf 5 2560#32 x0 x1 x2 x3 := by
  sl_unfold_run_names
  unfold_payloads
  simp only [View.readCov_cons_toLoadRect, readCov_whole2, readCov_whole3, readAt_unread2, readAt_unread3]
  rfl

set_option maxHeartbeats 4000000 in
/-- Tile 6: blocks 0 to 5 whole, then the masked block 6. -/
theorem tile6_eq :
    kernelRun0_A.sl.v1290 c arg1 harg1 arg2 harg2 arg3 harg3 arg4 harg4 arg6 arg7 arg8 arg9 arg10 arg11 x0 x1 x2 x3
      = tileOf 6 3072#32 x0 x1 x2 x3 := by
  sl_unfold_run_names
  unfold_payloads
  simp only [View.readCov_cons_toLoadRect, readCov_whole2, readCov_whole3, readAt_unread2, readAt_unread3]
  rfl

set_option maxHeartbeats 4000000 in
/-- Tile 7: blocks 0 to 6 whole, then the masked block 7; the last store's value is the quotient of the run's names for
    the final acc and l. -/
theorem tile7_eq :
    k0_pay1 (kernelRun0_A.sl.v c arg1 harg1 arg2 harg2 arg3 harg3 arg4 harg4 arg6 arg7 arg8 arg9 arg11 x0 x1 x2 x3)
        (kernelRun0_A.sl.v1619 c arg1 harg1 arg2 harg2 arg3 harg3 arg6 arg8 arg9 arg10 x0 x1 x2)
      = tileOf 7 3584#32 x0 x1 x2 x3 := by
  sl_unfold_run_names
  unfold_payloads
  simp only [View.readCov_cons_toLoadRect, readCov_whole2, readCov_whole3, readAt_unread2, readAt_unread3]
  rfl

/-- The attention output's buffer ends with eight pieces, tile by tile (last stored first). -/
theorem pieces4_eq :
    (kernelRun0_A c i arg1 harg1 arg2 harg2 arg3 harg3 arg4 harg4 arg5 harg5 arg6 harg6 arg7 harg7 arg8 harg8 arg9 harg9 arg10 harg10 arg11 harg11 x0 x1 x2 x3).1 =
      [⟨Rect.unit (s := S1x4096x64) ![0, 3584, 0] S1x512x64.size inb_S1x4096x64_S1x512x64_0_3584_0, tileOf 7 3584#32 x0 x1 x2 x3⟩,
       ⟨Rect.unit (s := S1x4096x64) ![0, 3072, 0] S1x512x64.size inb_S1x4096x64_S1x512x64_0_3072_0, tileOf 6 3072#32 x0 x1 x2 x3⟩,
       ⟨Rect.unit (s := S1x4096x64) ![0, 2560, 0] S1x512x64.size inb_S1x4096x64_S1x512x64_0_2560_0, tileOf 5 2560#32 x0 x1 x2 x3⟩,
       ⟨Rect.unit (s := S1x4096x64) ![0, 2048, 0] S1x512x64.size inb_S1x4096x64_S1x512x64_0_2048_0, tileOf 4 2048#32 x0 x1 x2 x3⟩,
       ⟨Rect.unit (s := S1x4096x64) ![0, 1536, 0] S1x512x64.size inb_S1x4096x64_S1x512x64_0_1536_0, tileOf 3 1536#32 x0 x1 x2 x3⟩,
       ⟨Rect.unit (s := S1x4096x64) ![0, 1024, 0] S1x512x64.size inb_S1x4096x64_S1x512x64_0_1024_0, tileOf 2 1024#32 x0 x1 x2 x3⟩,
       ⟨Rect.unit (s := S1x4096x64) ![0, 512, 0] S1x512x64.size inb_S1x4096x64_S1x512x64_0_512_0, tileOf 1 512#32 x0 x1 x2 x3⟩,
       ⟨Rect.unit (s := S1x4096x64) ![0, 0, 0] S1x512x64.size inb_S1x4096x64_S1x512x64_0_0_0, tileOf 0 0#32 x0 x1 x2 x3⟩] := by
  unfold kernelRun0_A
  dsimp only
  rw [tile7_eq, tile6_eq, tile5_eq, tile4_eq, tile3_eq, tile2_eq, tile1_eq, tile0_eq]

/-- The keys' buffer ends with one whole piece, the projection by the third input block. -/
theorem pieces5_eq :
    (kernelRun0_A c i arg1 harg1 arg2 harg2 arg3 harg3 arg4 harg4 arg5 harg5 arg6 harg6 arg7 harg7 arg8 harg8 arg9 harg9 arg10 harg10 arg11 harg11 x0 x1 x2 x3).2.1 =
      [⟨Rect.unit (s := S1x4096x64) ![0, 0, 0] S1x4096x64.size inb_S1x4096x64_S1x4096x64_0_0_0, KVf x0 x2⟩] := by
  unfold kernelRun0_A
  dsimp only
  sl_unfold_run_names
  simp only [readAt_unread2, readAt_unread3]
  rfl

/-- The values' buffer ends with one whole piece, the projection by the fourth input block. -/
theorem pieces6_eq :
    (kernelRun0_A c i arg1 harg1 arg2 harg2 arg3 harg3 arg4 harg4 arg5 harg5 arg6 harg6 arg7 harg7 arg8 harg8 arg9 harg9 arg10 harg10 arg11 harg11 x0 x1 x2 x3).2.2.1 =
      [⟨Rect.unit (s := S1x4096x64) ![0, 0, 0] S1x4096x64.size inb_S1x4096x64_S1x4096x64_0_0_0, KVf x0 x3⟩] := by
  unfold kernelRun0_A
  dsimp only
  sl_unfold_run_names
  simp only [readAt_unread2, readAt_unread3]
  rfl

end Cert.KernelIdeal.Attn

end
-- ==== Proof.AttnSpec.lean ====
/-
  Causal single-head attention over the reals, the function both programs compute.
  For one batch and a query row r the scores against the keys j are s(r, j) = (q_r · k_j) / 8; only the keys j ≤ r
  are visible; the result row is the softmax-weighted mean of the visible value rows,
      out(r, ·) = (∑_{j ≤ r} exp s(r, j) · v_j) / (∑_{j ≤ r} exp s(r, j)).
  A softmax is unchanged when one constant is subtracted from every score, so neither program's running or
  global maximum appears in this closed form.
-/
import Idealize.ShloMosaic.PureOps.Ideal
import Idealize.ShloMosaic.Lib.ValueIdx

noncomputable section

namespace Cert.AttnSpec

open Idealize.ShloMosaic Idealize.ShloMosaic.ValueIdx

/-- A function on the first n naturals, extended by zero. -/
def ext {n : ℕ} (f : Fin n → ℝ) (j : ℕ) : ℝ := if h : j < n then f ⟨j, h⟩ else 0

/-- The softmax-weighted mean of the first cnt values vv under the scores w. -/
def attnRow (w vv : ℕ → ℝ) (cnt : ℕ) : ℝ :=
  (∑ j ∈ Finset.range cnt, Real.exp (w j) * vv j) / (∑ j ∈ Finset.range cnt, Real.exp (w j))

/-- A projection x · W of one batch's rows. -/
def proj1 (xb : Fin 4096 → Fin 1024 → ℝ) (w : Fin 1024 → Fin 64 → ℝ) (r : Fin 4096) (h : Fin 64) : ℝ :=
  ∑ c : Fin 1024, xb r c * w c h

/-- The scaled score of query row r against key row j (zero beyond the sequence). -/
def score1 (q k : Fin 4096 → Fin 64 → ℝ) (r : Fin 4096) (j : ℕ) : ℝ :=
  (∑ h : Fin 64, q r h * ext (fun j' => k j' h) j) * (1 / 8)

/-- Causal attention within one batch: row r attends to the keys 0 … r. -/
def attn1 (q k v : Fin 4096 → Fin 64 → ℝ) (r : Fin 4096) (h : Fin 64) : ℝ :=
  attnRow (score1 q k r) (ext (fun j' => v j' h)) (r.val + 1)

/-- The attention output as an array of extended reals, from real inputs. -/
def outSpec (x : Fin 4 → Fin 4096 → Fin 1024 → ℝ) (wq wk wv : Fin 1024 → Fin 64 → ℝ) :
    (⟨3, ![4, 4096, 64]⟩ : Shape).Idx → EReal :=
  fun i => ((attn1 (proj1 (x (i 0)) wq) (proj1 (x (i 0)) wk) (proj1 (x (i 0)) wv) (i 1) (i 2) : ℝ) : EReal)

/-- A projection as an array of extended reals, from arrays of extended reals (no finiteness needed). -/
def projSpec (X : (⟨3, ![4, 4096, 1024]⟩ : Shape).Idx → EReal) (W : (⟨2, ![1024, 64]⟩ : Shape).Idx → EReal) :
    (⟨3, ![4, 4096, 64]⟩ : Shape).Idx → EReal :=
  fun i => ∑ c : Fin 1024, X (ix3 (i 0) (i 1) c) * W (ix2 c (i 2))

end Cert.AttnSpec

end
-- ==== Proof.SoftmaxMath.lean ====
/-
  The online softmax of one query row, on the extended reals.
  A row's keys arrive in blocks. The kernel keeps a running maximum m, a running normaliser l = ∑ exp (w_j - m) and running
  weighted sums acc_h = ∑ exp (w_j - m) · v_j,h over the keys seen so far, and rescales l and acc by exp (m_old - m_new) when
  the maximum moves. What is invariant is only that SOME real M plays the part of m: l and acc are the sums taken
  against that M, and the quotient acc / l does not depend on M.
-/
import Idealize.ShloMosaic.PureOps.Ideal
import proofs.«410186_j39256001085546_3_alg».proof.Proof.AttnSpec

noncomputable section

namespace Cert.AttnMath

open Idealize.ShloMosaic Cert.AttnSpec

/-- The running state (m, l, acc) of one query row after its first n keys, whose scores are the reals w j and whose value
    rows are vv j: before any key m is -∞ and the sums are empty; afterwards m is a real M and l, acc are the sums of
    exp (w j - M) and exp (w j - M) · vv j h over j < n. -/
def RowInv (w : ℕ → ℝ) (vv : ℕ → Fin 64 → ℝ) (n : ℕ) (m l : EReal) (acc : Fin 64 → EReal) : Prop :=
  ∃ M : ℝ, (n = 0 → m = ⊥) ∧ (0 < n → m = (M : EReal))
    ∧ l = ((∑ j ∈ Finset.range n, Real.exp (w j - M) : ℝ) : EReal)
    ∧ ∀ h, acc h = ((∑ j ∈ Finset.range n, Real.exp (w j - M) * vv j h : ℝ) : EReal)

/-- The cast of a finite sum of reals is the sum of the casts. -/
private theorem coe_sum {ι : Type*} (t : Finset ι) (f : ι → ℝ) :
    ((∑ i ∈ t, f i : ℝ) : EReal) = ∑ i ∈ t, (f i : EReal) := by
  classical
  refine Finset.induction_on t (by simp) ?_
  intro a t ha ih
  rw [Finset.sum_insert ha, Finset.sum_insert ha, EReal.coe_add, ih]

/-- The maximum of a block with at least one visible entry is a real: it is at least the first entry, a real,
    and every entry is below +∞. -/
private theorem fold_max_real (w : ℕ → ℝ) (n cnt : ℕ) (hcnt : 0 < cnt) (s : Fin 512 → EReal)
    (hs : ∀ κ : Fin 512, s κ = if κ.val < cnt then ((w (n + κ.val) : ℝ) : EReal) else ⊥) :
    ∃ B : ℝ, Finset.univ.fold max ⊥ s = (B : EReal) := by
  have hbot : Finset.univ.fold max ⊥ s ≠ ⊥ := by
    have h0 : ((w (n + 0) : ℝ) : EReal) ≤ Finset.univ.fold max ⊥ s := by
      rw [Finset.le_fold_max]
      refine Or.inr ⟨⟨0, by norm_num⟩, Finset.mem_univ _, ?_⟩
      rw [hs]
      simp [hcnt]
    intro h
    rw [h] at h0
    exact absurd h0 (not_le.2 (EReal.bot_lt_coe _))
  have htop : Finset.univ.fold max ⊥ s ≠ ⊤ := by
    apply ne_of_lt
    rw [Finset.fold_max_lt]
    refine ⟨bot_lt_top, fun κ _ => ?_⟩
    rw [hs]
    split_ifs
    · exact EReal.coe_lt_top _
    · exact bot_lt_top
  exact ⟨_, (EReal.coe_toReal htop hbot).symm⟩

/-- A block's sum against a real maximum M': a visible entry contributes exp (w - M') times its real factor, a masked
    entry contributes exp (-∞) = 0, so the sum over the 512 entries is the real sum over the cnt visible ones. -/
private theorem masked_sum (w : ℕ → ℝ) (n cnt : ℕ) (hcnt' : cnt ≤ 512) (M' : ℝ) (s : Fin 512 → EReal)
    (hs : ∀ κ : Fin 512, s κ = if κ.val < cnt then ((w (n + κ.val) : ℝ) : EReal) else ⊥)
    (g : Fin 512 → EReal) (gr : ℕ → ℝ) (hg : ∀ κ : Fin 512, g κ = ((gr κ.val : ℝ) : EReal)) :
    ∑ κ : Fin 512, Ideal.exp (s κ - (M' : EReal)) * g κ
      = ((∑ k ∈ Finset.range cnt, Real.exp (w (n + k) - M') * gr k : ℝ) : EReal) := by
  have hterm : ∀ κ : Fin 512, Ideal.exp (s κ - (M' : EReal)) * g κ
      = (((fun k : ℕ => if k < cnt then Real.exp (w (n + k) - M') * gr k else 0) κ.val : ℝ) : EReal) := by
    intro κ
    rw [hs κ, hg κ]
    by_cases hκ : κ.val < cnt
    · simp only [if_pos hκ]
      rw [← EReal.coe_sub, Ideal.exp_coe, ← EReal.coe_mul]
    · simp only [if_neg hκ]
      rw [EReal.bot_sub, Ideal.exp_bot, zero_mul, EReal.coe_zero]
  rw [Finset.sum_congr rfl (fun κ _ => hterm κ), ← coe_sum,
    Fin.sum_univ_eq_sum_range (fun k : ℕ => if k < cnt then Real.exp (w (n + k) - M') * gr k else 0) 512]
  congr 1
  rw [← Finset.sum_subset (Finset.range_mono hcnt')
    (fun k _ hk => if_neg (fun hlt => hk (Finset.mem_range.2 hlt)))]
  exact Finset.sum_congr rfl (fun k hk => if_pos (Finset.mem_range.1 hk))

/-- The update of one block once the new maximum is known to be the real M' and the rescaling factor the real α with
    α · exp (w j - M) = exp (w j - M') on the keys already seen: the rescaled old sums are the sums against M', and the
    block adds the next cnt terms. -/
private theorem step_core (w : ℕ → ℝ) (vv : ℕ → Fin 64 → ℝ) (n cnt : ℕ) (hcnt : 0 < cnt) (hcnt' : cnt ≤ 512)
    (l : EReal) (acc : Fin 64 → EReal) (s : Fin 512 → EReal) (vb : Fin 512 → Fin 64 → EReal)
    (hs : ∀ κ : Fin 512, s κ = if κ.val < cnt then ((w (n + κ.val) : ℝ) : EReal) else ⊥)
    (hv : ∀ (κ : Fin 512) (h : Fin 64), vb κ h = ((vv (n + κ.val) h : ℝ) : EReal))
    (M M' α : ℝ) (m' a : EReal) (hm' : m' = (M' : EReal)) (ha : a = (α : EReal))
    (hα : ∀ j ∈ Finset.range n, α * Real.exp (w j - M) = Real.exp (w j - M'))
    (hl : l = ((∑ j ∈ Finset.range n, Real.exp (w j - M) : ℝ) : EReal))
    (hacc : ∀ h, acc h = ((∑ j ∈ Finset.range n, Real.exp (w j - M) * vv j h : ℝ) : EReal)) :
    RowInv w vv (n + cnt) m' (a * l + ∑ κ : Fin 512, Ideal.exp (s κ - m'))
      (fun h => a * acc h + ∑ κ : Fin 512, Ideal.exp (s κ - m') * vb κ h) := by
  subst hm' ha
  unfold RowInv
  refine ⟨M', fun h0 => absurd h0 (by omega), fun _ => rfl, ?_, fun h => ?_⟩
  · have e1 : ∑ κ : Fin 512, Ideal.exp (s κ - (M' : EReal))
        = ((∑ k ∈ Finset.range cnt, Real.exp (w (n + k) - M') : ℝ) : EReal) := by
      have e := masked_sum w n cnt hcnt' M' s hs (fun _ => 1) (fun _ => 1) (fun _ => EReal.coe_one.symm)
      simp only [mul_one] at e
      exact e
    rw [e1, hl, ← EReal.coe_mul, ← EReal.coe_add, Finset.sum_range_add, Finset.mul_sum,
      Finset.sum_congr rfl hα]
  · show (α : EReal) * acc h + ∑ κ : Fin 512, Ideal.exp (s κ - (M' : EReal)) * vb κ h = _
    rw [masked_sum w n cnt hcnt' M' s hs (fun κ => vb κ h) (fun k => vv (n + k) h) (fun κ => hv κ h),
      hacc h, ← EReal.coe_mul, ← EReal.coe_add, Finset.sum_range_add, Finset.mul_sum]
    congr 2
    exact Finset.sum_congr rfl (fun j hj => by rw [← mul_assoc, hα j hj])

/-- The state before any key. -/
theorem rowInv_zero (w : ℕ → ℝ) (vv : ℕ → Fin 64 → ℝ) : RowInv w vv 0 ⊥ 0 (fun _ => 0) := by
  unfold RowInv
  refine ⟨0, fun _ => rfl, fun h => absurd h (lt_irrefl 0), ?_, fun _ => ?_⟩ <;> simp

/-- One block of 512 score entries, of which the first cnt ≥ 1 are the next cnt keys' scores and the rest are masked to -∞:
    the kernel's update of (m, l, acc) keeps the invariant, now over n + cnt keys. -/
theorem rowInv_step (w : ℕ → ℝ) (vv : ℕ → Fin 64 → ℝ) (n cnt : ℕ) (hcnt : 0 < cnt) (hcnt' : cnt ≤ 512)
    (m l : EReal) (acc : Fin 64 → EReal) (s : Fin 512 → EReal) (vb : Fin 512 → Fin 64 → EReal)
    (hs : ∀ κ : Fin 512, s κ = if κ.val < cnt then ((w (n + κ.val) : ℝ) : EReal) else ⊥)
    (hv : ∀ (κ : Fin 512) (h : Fin 64), vb κ h = ((vv (n + κ.val) h : ℝ) : EReal))
    (hinv : RowInv w vv n m l acc) :
    RowInv w vv (n + cnt) (max m (Finset.univ.fold max ⊥ s))
      (Ideal.exp (m - max m (Finset.univ.fold max ⊥ s)) * l
        + ∑ κ : Fin 512, Ideal.exp (s κ - max m (Finset.univ.fold max ⊥ s)))
      (fun h => Ideal.exp (m - max m (Finset.univ.fold max ⊥ s)) * acc h
        + ∑ κ : Fin 512, Ideal.exp (s κ - max m (Finset.univ.fold max ⊥ s)) * vb κ h) := by
  obtain ⟨M, h0, hpos, hl, hacc⟩ := hinv
  obtain ⟨B, hB⟩ := fold_max_real w n cnt hcnt s hs
  rcases Nat.eq_zero_or_pos n with hn | hn
  · -- no key yet: m = -∞, the new maximum is the block's, and the factor exp (-∞) = 0 meets empty sums
    have hm : m = ⊥ := h0 hn
    have hm' : max m (Finset.univ.fold max ⊥ s) = (B : EReal) := by
      rw [hm, hB, max_eq_right bot_le]
    have ha : Ideal.exp (m - max m (Finset.univ.fold max ⊥ s)) = ((0 : ℝ) : EReal) := by
      rw [hm', hm, EReal.bot_sub, Ideal.exp_bot, EReal.coe_zero]
    refine step_core w vv n cnt hcnt hcnt' l acc s vb hs hv M B 0 _ _ hm' ha ?_ hl hacc
    intro j hj
    rw [hn] at hj
    simp at hj
  · -- some keys seen: m = M, the new maximum is max M B, and exp (M - M') · exp (w j - M) = exp (w j - M')
    have hm : m = (M : EReal) := hpos hn
    have hm' : max m (Finset.univ.fold max ⊥ s) = ((max M B : ℝ) : EReal) := by
      rw [hm, hB]
      exact (EReal.coe_strictMono.monotone.map_max).symm
    have ha : Ideal.exp (m - max m (Finset.univ.fold max ⊥ s)) = ((Real.exp (M - max M B) : ℝ) : EReal) := by
      rw [hm', hm, ← EReal.coe_sub, Ideal.exp_coe]
    refine step_core w vv n cnt hcnt hcnt' l acc s vb hs hv M (max M B) (Real.exp (M - max M B)) _ _ hm' ha ?_ hl hacc
    intro j _
    rw [← Real.exp_add]
    congr 1
    ring

/-- After at least one key, acc / l is the softmax-weighted mean of the value rows seen. -/
theorem rowInv_final (w : ℕ → ℝ) (vv : ℕ → Fin 64 → ℝ) (n : ℕ) (hn : 0 < n) (m l : EReal) (acc : Fin 64 → EReal)
    (hinv : RowInv w vv n m l acc) (h : Fin 64) :
    Ideal.div (acc h) l = ((attnRow w (fun j => vv j h) n : ℝ) : EReal) := by
  obtain ⟨M, -, -, hl, hacc⟩ := hinv
  have hS : 0 < ∑ j ∈ Finset.range n, Real.exp (w j - M) :=
    Finset.sum_pos (fun j _ => Real.exp_pos _) (Finset.nonempty_range_iff.2 hn.ne')
  -- exp (w j - M) = exp (-M) · exp (w j): the common factor exp (-M) cancels in the quotient
  have hN : ∑ j ∈ Finset.range n, Real.exp (w j - M) * vv j h
      = Real.exp (-M) * ∑ j ∈ Finset.range n, Real.exp (w j) * vv j h := by
    rw [Finset.mul_sum]
    exact Finset.sum_congr rfl (fun j _ => by rw [sub_eq_add_neg, Real.exp_add]; ring)
  have hD : ∑ j ∈ Finset.range n, Real.exp (w j - M)
      = Real.exp (-M) * ∑ j ∈ Finset.range n, Real.exp (w j) := by
    rw [Finset.mul_sum]
    exact Finset.sum_congr rfl (fun j _ => by rw [sub_eq_add_neg, Real.exp_add, mul_comm])
  rw [hl, hacc h, Ideal.div_coe hS.ne', ← EReal.coe_mul]
  congr 1
  rw [attnRow, hN, hD, mul_one_div, mul_div_mul_left _ _ (Real.exp_pos _).ne']

end Cert.AttnMath

end
-- ==== Proof.Consts.lean ====
/-
  The float constants the two programs spell, as the extended reals their patterns denote: the scale 1/8, the divisor's
  radicand 64, zero, and the two infinities (the top and the bottom of the extended reals).
-/
import Idealize.ShloMosaic.PureOps.Ideal

noncomputable section

namespace Cert.Consts

open Idealize.ShloMosaic

/-- +0.0 denotes 0. -/
theorem ofBits_zero : Ideal.ofBits .f32 0x00000000#32 = 0 := by
  simp [Ideal.ofBits, Ideal.ieee]

/-- 0.125 denotes the real 1/8. -/
theorem ofBits_eighth : Ideal.ofBits .f32 0x3E000000#32 = (((1 / 8 : ℝ)) : EReal) := by
  simp [Ideal.ofBits, Ideal.ieee, -EReal.coe_mul]; norm_num

/-- 64.0 denotes the real 64. -/
theorem ofBits_64 : Ideal.ofBits .f32 0x42800000#32 = ((64 : ℝ) : EReal) := by
  simp [Ideal.ofBits, Ideal.ieee, -EReal.coe_mul]; norm_num

/-- The pattern of plus infinity (sign 0, exponent all ones, significand 0) denotes ⊤. -/
theorem ofBits_pos_inf : Ideal.ofBits .f32 0x7F800000#32 = (⊤ : EReal) := by
  simp [Ideal.ofBits, Ideal.ieee]

/-- The pattern of minus infinity denotes ⊥. -/
theorem ofBits_neg_inf : Ideal.ofBits .f32 0xFF800000#32 = ⊥ := by
  simp [Ideal.ofBits, Ideal.ieee]

end Cert.Consts

end
-- ==== Proof.TileValue.lean ====
/-
  The tile recurrence read entry by entry over the extended reals: scores, mask, row maximum, row sum, the two matrix
  products, and the running state of a query row, which the online-softmax invariant then carries from block to block.
-/
import proofs.«410186_j39256001085546_3_alg».proof.Proof.TileDefs
import proofs.«410186_j39256001085546_3_alg».proof.Proof.SoftmaxMath
import proofs.«410186_j39256001085546_3_alg».proof.Proof.Consts
import Idealize.ShloMosaic.Lib.ValueIdx
import Idealize.ShloMosaic.Lib.ValueLayout
import Idealize.ShloMosaic.PureOps.Ideal.Laws
import Idealize.ShloMosaic.PureOps.IdealRules
import Idealize.ShloMosaic.Lib.StableHlo.Predicate

set_option maxRecDepth 16384

noncomputable section

namespace Cert.KernelIdeal.Attn

open Cert.KernelIdeal Cert.KernelIdeal.Gen Cert.AttnSpec Cert.AttnMath
open Idealize.ShloMosaic Idealize.ShloMosaic.TcCoe Idealize.ShloMosaic.ValueIdx

/-! ## The two matrix products at an entry -/

local notation "dQK" => dot_S512x64_S512x64_S512x512_1_1_0_0_n_n
local notation "dPV" => dot_S512x512_S512x64_S512x64_1_0_0_1_n_n

theorem lhsQK_0 (i : S512x512.Idx) (q : dot_S512x64_S512x64_S512x512_1_1_0_0_n_n.contr.Idx) :
    (dot_S512x64_S512x64_S512x512_1_1_0_0_n_n.lhsIdx i q 0).val = (i 0).val := by
  unfold DotDims.lhsIdx
  rw [dif_neg (show ¬(0 : Fin S512x64.rank) ∈ dot_S512x64_S512x64_S512x512_1_1_0_0_n_n.lhsBatch by decide),
    dif_pos (show (0 : Fin S512x64.rank) ∈ dot_S512x64_S512x64_S512x512_1_1_0_0_n_n.lhsNonContracting by decide)]
  rfl
theorem lhsQK_1 (i : S512x512.Idx) (q : dot_S512x64_S512x64_S512x512_1_1_0_0_n_n.contr.Idx) :
    (dot_S512x64_S512x64_S512x512_1_1_0_0_n_n.lhsIdx i q 1).val = (q ⟨0, by decide⟩).val :=
  dot_S512x64_S512x64_S512x512_1_1_0_0_n_n.lhsIdx_val_of_single rfl i q
theorem rhsQK_0 (i : S512x512.Idx) (q : dot_S512x64_S512x64_S512x512_1_1_0_0_n_n.contr.Idx) :
    (dot_S512x64_S512x64_S512x512_1_1_0_0_n_n.rhsIdx i q 0).val = (i 1).val := by
  unfold DotDims.rhsIdx
  rw [dif_neg (show ¬(0 : Fin S512x64.rank) ∈ dot_S512x64_S512x64_S512x512_1_1_0_0_n_n.rhsBatch by decide),
    dif_pos (show (0 : Fin S512x64.rank) ∈ dot_S512x64_S512x64_S512x512_1_1_0_0_n_n.rhsNonContracting by decide)]
  rfl
theorem rhsQK_1 (i : S512x512.Idx) (q : dot_S512x64_S512x64_S512x512_1_1_0_0_n_n.contr.Idx) :
    (dot_S512x64_S512x64_S512x512_1_1_0_0_n_n.rhsIdx i q 1).val = (q ⟨0, by decide⟩).val :=
  dot_S512x64_S512x64_S512x512_1_1_0_0_n_n.rhsIdx_val_of_single rfl i q

/-- Queries against keys: entry (r, k) is the inner product of query row r and key row k over the 64 head channels. -/
theorem matmulQK_apply (a b : FVec Ideal S512x64 .bf16) (r k : Fin 512) :
    matmul dot_S512x64_S512x64_S512x512_1_1_0_0_n_n none a b (constant S512x512 .f32 0x00000000#32) (ix2 r k)
      = ∑ h : Fin 64, a (ix2 r h) * b (ix2 k h) := by
  simp only [matmul]
  rw [Ideal.matmul_constant_zero_apply,
    ← Equiv.sum_comp (contrEquiv1 dot_S512x64_S512x64_S512x512_1_1_0_0_n_n 64 rfl rfl).symm]
  refine Finset.sum_congr rfl fun h _ => ?_
  have hk := contrEquiv1_symm_val dot_S512x64_S512x64_S512x512_1_1_0_0_n_n 64 rfl rfl h
  have el : dot_S512x64_S512x64_S512x512_1_1_0_0_n_n.lhsIdx (ix2 r k)
      ((contrEquiv1 dot_S512x64_S512x64_S512x512_1_1_0_0_n_n 64 rfl rfl).symm h) = ix2 r h := funext fun a => Fin.ext (by
    match a with
    | ⟨0, _⟩ => exact lhsQK_0 _ _
    | ⟨1, _⟩ => exact (lhsQK_1 _ _).trans hk)
  have er : dot_S512x64_S512x64_S512x512_1_1_0_0_n_n.rhsIdx (ix2 r k)
      ((contrEquiv1 dot_S512x64_S512x64_S512x512_1_1_0_0_n_n 64 rfl rfl).symm h) = ix2 k h := funext fun a => Fin.ext (by
    match a with
    | ⟨0, _⟩ => exact rhsQK_0 _ _
    | ⟨1, _⟩ => exact (rhsQK_1 _ _).trans hk)
  rw [el, er]

theorem lhsPV_0 (i : S512x64.Idx) (q : dot_S512x512_S512x64_S512x64_1_0_0_1_n_n.contr.Idx) :
    (dot_S512x512_S512x64_S512x64_1_0_0_1_n_n.lhsIdx i q 0).val = (i 0).val := by
  unfold DotDims.lhsIdx
  rw [dif_neg (show ¬(0 : Fin S512x512.rank) ∈ dot_S512x512_S512x64_S512x64_1_0_0_1_n_n.lhsBatch by decide),
    dif_pos (show (0 : Fin S512x512.rank) ∈ dot_S512x512_S512x64_S512x64_1_0_0_1_n_n.lhsNonContracting by decide)]
  rfl
theorem lhsPV_1 (i : S512x64.Idx) (q : dot_S512x512_S512x64_S512x64_1_0_0_1_n_n.contr.Idx) :
    (dot_S512x512_S512x64_S512x64_1_0_0_1_n_n.lhsIdx i q 1).val = (q ⟨0, by decide⟩).val :=
  dot_S512x512_S512x64_S512x64_1_0_0_1_n_n.lhsIdx_val_of_single rfl i q
theorem rhsPV_0 (i : S512x64.Idx) (q : dot_S512x512_S512x64_S512x64_1_0_0_1_n_n.contr.Idx) :
    (dot_S512x512_S512x64_S512x64_1_0_0_1_n_n.rhsIdx i q 0).val = (q ⟨0, by decide⟩).val :=
  dot_S512x512_S512x64_S512x64_1_0_0_1_n_n.rhsIdx_val_of_single rfl i q
theorem rhsPV_1 (i : S512x64.Idx) (q : dot_S512x512_S512x64_S512x64_1_0_0_1_n_n.contr.Idx) :
    (dot_S512x512_S512x64_S512x64_1_0_0_1_n_n.rhsIdx i q 1).val = (i 1).val := by
  unfold DotDims.rhsIdx
  rw [dif_neg (show ¬(1 : Fin S512x64.rank) ∈ dot_S512x512_S512x64_S512x64_1_0_0_1_n_n.rhsBatch by decide),
    dif_pos (show (1 : Fin S512x64.rank) ∈ dot_S512x512_S512x64_S512x64_1_0_0_1_n_n.rhsNonContracting by decide)]
  rfl

/-- Weights against values: entry (r, h) is the sum over the block's 512 keys of weight (r, k) times value (k, h). -/
theorem matmulPV_apply (p : FVec Ideal S512x512 .bf16) (v : FVec Ideal S512x64 .bf16) (r : Fin 512) (h : Fin 64) :
    matmul dot_S512x512_S512x64_S512x64_1_0_0_1_n_n none p v (constant S512x64 .f32 0x00000000#32) (ix2 r h)
      = ∑ k : Fin 512, p (ix2 r k) * v (ix2 k h) := by
  simp only [matmul]
  rw [Ideal.matmul_constant_zero_apply,
    ← Equiv.sum_comp (contrEquiv1 dot_S512x512_S512x64_S512x64_1_0_0_1_n_n 512 rfl rfl).symm]
  refine Finset.sum_congr rfl fun k _ => ?_
  have hk := contrEquiv1_symm_val dot_S512x512_S512x64_S512x64_1_0_0_1_n_n 512 rfl rfl k
  have el : dot_S512x512_S512x64_S512x64_1_0_0_1_n_n.lhsIdx (ix2 r h)
      ((contrEquiv1 dot_S512x512_S512x64_S512x64_1_0_0_1_n_n 512 rfl rfl).symm k) = ix2 r k := funext fun a => Fin.ext (by
    match a with
    | ⟨0, _⟩ => exact lhsPV_0 _ _
    | ⟨1, _⟩ => exact (lhsPV_1 _ _).trans hk)
  have er : dot_S512x512_S512x64_S512x64_1_0_0_1_n_n.rhsIdx (ix2 r h)
      ((contrEquiv1 dot_S512x512_S512x64_S512x64_1_0_0_1_n_n 512 rfl rfl).symm k) = ix2 k h := funext fun a => Fin.ext (by
    match a with
    | ⟨0, _⟩ => exact (rhsPV_0 _ _).trans hk
    | ⟨1, _⟩ => exact rhsPV_1 _ _)
  rw [el, er]

/-- The coercion of a finite real sum. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## Constants, casts and row reductions at an entry -/

/-- The named mask value is minus infinity. -/
theorem neg_big_bot : Named.named (F := Ideal) Cert.KernelIdeal.κ "neg_big" (φ := .f32) 0xF149F2CA#32 = (⊥ : EReal) :=
  IdealRules.named_const.ideal_named_scalar _ _ _ _ rfl

/-- A plain vector cast to a column: entry (r, 0) is entry r. -/
theorem cast_col_apply (v : FVec Ideal S512 .f32) (r : Fin 512) (z : Fin 1) :
    shapeCast S512x1 v shapeCasts_S512_S512x1 (ix2 r z) = v (ix1 r) :=
  shapeCast_apply v _ _ _ (by
    rw [Shape.rowMajor_val_one, Shape.rowMajor_val_two]
    show r.val = r.val * 1 + z.val
    omega)

/-- The row maximum of a 512 × 512 block, from minus infinity. -/
theorem rowMax_apply (s : FVec Ideal S512x512 .f32) (r : Fin 512) (z : Fin 1) :
    rowMax s (ix2 r z) = Finset.univ.fold max ⊥ (fun k : Fin 512 => s (ix2 r k)) := by
  unfold rowMax
  rw [cast_col_apply]
  refine (Ideal.multiReduction_maximumf_single s _ reduces_S512x512_S512 _ _ (ix1 r)).trans ?_
  have hl : (s ∘ reduces_S512x512_S512.lift (ix1 r)) = fun k : Fin 512 => s (ix2 r k) := by
    funext k
    exact congrArg s (funext fun a => Fin.ext (by match a with | ⟨0, _⟩ => rfl | ⟨1, _⟩ => rfl))
  rw [hl]
  exact congrArg (fun b => Finset.univ.fold max b fun k : Fin 512 => s (ix2 r k)) Cert.Consts.ofBits_neg_inf

/-- The row sum of a 512 × 512 block. -/
theorem rowSum_apply (p : FVec Ideal S512x512 .f32) (r : Fin 512) (z : Fin 1) :
    rowSum p (ix2 r z) = ∑ k : Fin 512, p (ix2 r k) := by
  unfold rowSum
  rw [cast_col_apply]
  refine (Ideal.multiReduction_add_single p _ reduces_S512x512_S512 _ _ (ix1 r)).trans ?_
  exact Finset.sum_congr rfl fun k _ =>
    congrArg p (funext fun a => Fin.ext (by match a with | ⟨0, _⟩ => rfl | ⟨1, _⟩ => rfl))

/-- A column broadcast along the keys, and along the head channels. -/
theorem bcast_keys_apply (v : FVec Ideal S512x1 .f32) (r k : Fin 512) :
    broadcastTo S512x512 v broadcasts_S512x1_S512x512 (ix2 r k) = v (ix2 r 0) :=
  broadcastTo_apply v _ _ _ (fun a => by match a with | ⟨0, _⟩ => rfl | ⟨1, _⟩ => rfl)
theorem bcast_chan_apply (v : FVec Ideal S512x1 .f32) (r : Fin 512) (h : Fin 64) :
    broadcastTo S512x64 v broadcasts_S512x1_S512x64 (ix2 r h) = v (ix2 r 0) :=
  broadcastTo_apply v _ _ _ (fun a => by match a with | ⟨0, _⟩ => rfl | ⟨1, _⟩ => rfl)

/-- The causal mask's bit at (r, k) of the diagonal block of tile n: set exactly when k ≤ r. -/
theorem mask_bit (n : ℕ) (hn : n < 8) (r k : Fin 512) :
    cmpi .sge (addi (broadcast S512x512 (BitVec.ofNat 32 (512 * n))) (iota .tc S512x512 32 [0] iota_S512x512_d0_w32))
      (addi (broadcast S512x512 (BitVec.ofNat 32 (512 * n))) (iota .tc S512x512 32 [1] iota_S512x512_d1_w32)) (ix2 r k)
      = if k.val ≤ r.val then 1#1 else 0#1 := by
  show IntOp.cmpi .sge (IntOp.addi (BitVec.ofNat 32 (512 * n)) (iota .tc S512x512 32 [0] iota_S512x512_d0_w32 (ix2 r k)))
      (IntOp.addi (BitVec.ofNat 32 (512 * n)) (iota .tc S512x512 32 [1] iota_S512x512_d1_w32 (ix2 r k))) = _
  rw [iota_single_apply, iota_single_apply]
  show IntOp.cmpi .sge (BitVec.ofNat 32 (512 * n) + BitVec.ofNat 32 r.val) (BitVec.ofNat 32 (512 * n) + BitVec.ofNat 32 k.val) = _
  have hr := r.isLt
  have hk := k.isLt
  have ha : (BitVec.ofNat 32 (512 * n) + BitVec.ofNat 32 r.val).toNat = 512 * n + r.val := by
    simp only [BitVec.toNat_add, BitVec.toNat_ofNat]; omega
  have hb : (BitVec.ofNat 32 (512 * n) + BitVec.ofNat 32 k.val).toNat = 512 * n + k.val := by
    simp only [BitVec.toNat_add, BitVec.toNat_ofNat]; omega
  have hiff := StableHlo.Predicate.sge_iff_toNat (a := BitVec.ofNat 32 (512 * n) + BitVec.ofNat 32 r.val)
    (b := BitVec.ofNat 32 (512 * n) + BitVec.ofNat 32 k.val) (by rw [ha]; omega) (by rw [hb]; omega)
  rw [ha, hb] at hiff
  by_cases hkr : k.val ≤ r.val
  · rw [if_pos hkr]; exact hiff.mpr (by omega)
  · rw [if_neg hkr]
    exact eq_zero_of_ne_one (fun h1 => hkr (by have := hiff.mp h1; omega))

/-- The masked scores of the diagonal block: the score where k ≤ r, minus infinity elsewhere. -/
theorem maskT_apply (n : ℕ) (hn : n < 8) (s : FVec Ideal S512x512 .f32) (r k : Fin 512) :
    maskT (BitVec.ofNat 32 (512 * n)) s (ix2 r k) = if k.val ≤ r.val then s (ix2 r k) else ⊥ := by
  unfold maskT
  rw [select_apply, mask_bit n hn r k]
  by_cases hkr : k.val ≤ r.val
  · rw [if_pos hkr, if_pos hkr]; exact select_one _ _
  · rw [if_neg hkr, if_neg hkr, select_zero]
    exact neg_big_bot

/-- The scaled scores of a tile of real queries against a block of real keys. -/
theorem scoreT_apply (qb : FVec Ideal S512x64 .bf16) (kb : Vec Ideal S1x512x64 .f32)
    (qr : Fin 512 → Fin 64 → ℝ) (kr : Fin 512 → Fin 64 → ℝ)
    (hq : ∀ r h, qb (ix2 r h) = ((qr r h : ℝ) : EReal)) (hk : ∀ k h, kb (ix3 0 k h) = ((kr k h : ℝ) : EReal)) (r k : Fin 512) :
    scoreT qb kb (ix2 r k) = (((∑ h : Fin 64, qr r h * kr k h) * (1 / 8) : ℝ) : EReal) := by
  unfold scoreT
  rw [mulf_apply, matmulQK_apply]
  have hsum : (∑ h : Fin 64, qb (ix2 r h) * (truncf .bf16 (shapeCast S512x64 kb shapeCasts_S1x512x64_S512x64) bitsLt_bf16_f32) (ix2 k h))
      = ((∑ h : Fin 64, qr r h * kr k h : ℝ) : EReal) := by
    rw [coe_sum]
    refine Finset.sum_congr rfl fun h _ => ?_
    rw [truncf_apply, shapeCast_1ab_ab_apply, hq, hk, EReal.coe_mul]
  rw [hsum]
  show _ * Ideal.ofBits .f32 0x3E000000#32 = _
  rw [Cert.Consts.ofBits_eighth, ← EReal.coe_mul]

/-! ## The running state of a query row -/

/-- The scaled score of query row r of the tile against the key with absolute index j. -/
def wRow (qr : Fin 512 → Fin 64 → ℝ) (kr : ℕ → Fin 64 → ℝ) (r : Fin 512) (j : ℕ) : ℝ :=
  (∑ h : Fin 64, qr r h * kr j h) * (1 / 8)

/-- Row r of the scratch state is the online-softmax state of that row after its first n keys. -/
def StInv (qr : Fin 512 → Fin 64 → ℝ) (kr vr : ℕ → Fin 64 → ℝ) (r : Fin 512) (n : ℕ) (st : St Ideal) : Prop :=
  RowInv (wRow qr kr r) vr n (st.m (ix2 r 0)) (st.l (ix2 r 0)) (fun h => st.acc (ix2 r h))

theorem st0_m (r : Fin 512) (z : Fin 1) : (st0 (F := Ideal)).m (ix2 r z) = ⊥ := by
  show shapeCast S512x1 (broadcast S512x1 (Scalar.ofBits .f32 0xFF800000#32)) shapeCasts_S512x1_S512x1 (ix2 r z) = _
  rw [shapeCast_self]
  exact Cert.Consts.ofBits_neg_inf
theorem st0_l (r : Fin 512) (z : Fin 1) : (st0 (F := Ideal)).l (ix2 r z) = 0 := by
  show shapeCast S512x1 (broadcast S512x1 (Scalar.ofBits .f32 0x00000000#32)) shapeCasts_S512x1_S512x1 (ix2 r z) = _
  rw [shapeCast_self]
  exact Cert.Consts.ofBits_zero
theorem st0_acc (r : Fin 512) (h : Fin 64) : (st0 (F := Ideal)).acc (ix2 r h) = 0 := by
  show shapeCast S512x64 (broadcast S512x64 (Scalar.ofBits .f32 0x00000000#32)) shapeCasts_S512x64_S512x64 (ix2 r h) = _
  rw [shapeCast_self]
  exact Cert.Consts.ofBits_zero

theorem stInv_zero (qr : Fin 512 → Fin 64 → ℝ) (kr vr : ℕ → Fin 64 → ℝ) (r : Fin 512) : StInv qr kr vr r 0 st0 := by
  unfold StInv
  rw [st0_m, st0_l]
  have hacc : (fun h : Fin 64 => (st0 (F := Ideal)).acc (ix2 r h)) = fun _ => 0 := funext fun h => st0_acc r h
  rw [hacc]
  exact rowInv_zero _ _

variable (s : FVec Ideal S512x512 .f32) (vb : Vec Ideal S1x512x64 .f32) (st : St Ideal)

/-- The new running maximum of row r. -/
theorem mNew_apply (m : FVec Ideal S512x1 .f32) (r : Fin 512) (z : Fin 1) :
    mNew s m (ix2 r z) = max (m (ix2 r z)) (Finset.univ.fold max ⊥ fun k : Fin 512 => s (ix2 r k)) := by
  unfold mNew
  rw [maximumf_apply, rowMax_apply]

theorem stepS_m (r : Fin 512) (z : Fin 1) :
    (stepS s vb st).m (ix2 r z) = max (st.m (ix2 r z)) (Finset.univ.fold max ⊥ fun k : Fin 512 => s (ix2 r k)) := by
  show shapeCast S512x1 (mNew s st.m) shapeCasts_S512x1_S512x1 (ix2 r z) = _
  rw [shapeCast_self, mNew_apply]

/-- The rescaling factor of row r. -/
theorem aOf_apply (m : FVec Ideal S512x1 .f32) (r : Fin 512) (z : Fin 1) :
    aOf s m (ix2 r z)
      = Ideal.exp (m (ix2 r z) - max (m (ix2 r z)) (Finset.univ.fold max ⊥ fun k : Fin 512 => s (ix2 r k))) := by
  show Ideal.exp (subf m (mNew s m) (ix2 r z)) = _
  rw [subf_apply, mNew_apply]

/-- The unnormalised weight of key k for row r. -/
theorem pOf_apply (m : FVec Ideal S512x1 .f32) (r k : Fin 512) :
    pOf s m (ix2 r k)
      = Ideal.exp (s (ix2 r k) - max (m (ix2 r 0)) (Finset.univ.fold max ⊥ fun k : Fin 512 => s (ix2 r k))) := by
  show Ideal.exp (subf s (broadcastTo S512x512 (mNew s m) broadcasts_S512x1_S512x512) (ix2 r k)) = _
  rw [subf_apply, bcast_keys_apply, mNew_apply]

theorem stepS_l (r : Fin 512) :
    (stepS s vb st).l (ix2 r 0)
      = Ideal.exp (st.m (ix2 r 0) - max (st.m (ix2 r 0)) (Finset.univ.fold max ⊥ fun k : Fin 512 => s (ix2 r k))) * st.l (ix2 r 0)
        + ∑ k : Fin 512, Ideal.exp (s (ix2 r k) - max (st.m (ix2 r 0)) (Finset.univ.fold max ⊥ fun k : Fin 512 => s (ix2 r k))) := by
  show shapeCast S512x1 (lNew s st.m st.l) shapeCasts_S512x1_S512x1 (ix2 r 0) = _
  rw [shapeCast_self]
  unfold lNew
  rw [addf_apply, mulf_apply, aOf_apply, rowSum_apply]
  exact congrArg (_ + ·) (Finset.sum_congr rfl fun k _ => pOf_apply s st.m r k)

theorem stepS_acc (r : Fin 512) (h : Fin 64) :
    (stepS s vb st).acc (ix2 r h)
      = Ideal.exp (st.m (ix2 r 0) - max (st.m (ix2 r 0)) (Finset.univ.fold max ⊥ fun k : Fin 512 => s (ix2 r k))) * st.acc (ix2 r h)
        + ∑ k : Fin 512, Ideal.exp (s (ix2 r k) - max (st.m (ix2 r 0)) (Finset.univ.fold max ⊥ fun k : Fin 512 => s (ix2 r k)))
            * vb (ix3 0 k h) := by
  show shapeCast S512x64 (accNew s st.m st.acc vb) shapeCasts_S512x64_S512x64 (ix2 r h) = _
  rw [shapeCast_self]
  unfold accNew
  rw [addf_apply, mulf_apply, bcast_chan_apply, aOf_apply, matmulPV_apply]
  refine congrArg (_ + ·) (Finset.sum_congr rfl fun k _ => ?_)
  rw [truncf_apply, truncf_apply, pOf_apply, shapeCast_1ab_ab_apply]

/-- One block of keys keeps the invariant: its first cnt columns are the next cnt keys' scores, the rest masked. -/
theorem stInv_step (qr : Fin 512 → Fin 64 → ℝ) (kr vr : ℕ → Fin 64 → ℝ) (r : Fin 512) (n cnt : ℕ) (hcnt : 0 < cnt) (hcnt' : cnt ≤ 512)
    (hs : ∀ k : Fin 512, s (ix2 r k) = if k.val < cnt then ((wRow qr kr r (n + k.val) : ℝ) : EReal) else ⊥)
    (hv : ∀ (k : Fin 512) (h : Fin 64), vb (ix3 0 k h) = ((vr (n + k.val) h : ℝ) : EReal))
    (hinv : StInv qr kr vr r n st) : StInv qr kr vr r (n + cnt) (stepS s vb st) := by
  unfold StInv at hinv ⊢
  have hstep := rowInv_step (wRow qr kr r) vr n cnt hcnt hcnt' _ _ _ (fun k : Fin 512 => s (ix2 r k))
    (fun (k : Fin 512) (h : Fin 64) => vb (ix3 0 k h)) hs hv hinv
  rw [stepS_m, stepS_l]
  have hacc : (fun h : Fin 64 => (stepS s vb st).acc (ix2 r h)) = _ := funext fun h => stepS_acc s vb st r h
  rw [hacc]
  exact hstep

/-! ## The tile -/

/-- After t whole blocks, row r has seen the keys 0 … 512 t - 1. -/
theorem stInv_stateN (qb : FVec Ideal S512x64 .bf16) (kb vb : ℕ → Vec Ideal S1x512x64 .f32)
    (qr : Fin 512 → Fin 64 → ℝ) (kr vr : ℕ → Fin 64 → ℝ) (N : ℕ)
    (hq : ∀ r h, qb (ix2 r h) = ((qr r h : ℝ) : EReal))
    (hk : ∀ t, t < N → ∀ (k : Fin 512) (h : Fin 64), kb t (ix3 0 k h) = ((kr (512 * t + k.val) h : ℝ) : EReal))
    (hv : ∀ t, t < N → ∀ (k : Fin 512) (h : Fin 64), vb t (ix3 0 k h) = ((vr (512 * t + k.val) h : ℝ) : EReal))
    (r : Fin 512) : ∀ t, t ≤ N → StInv qr kr vr r (512 * t) (stateN qb kb vb t)
  | 0, _ => stInv_zero qr kr vr r
  | t + 1, ht => by
    have ih := stInv_stateN qb kb vb qr kr vr N hq hk hv r t (by omega)
    show StInv qr kr vr r (512 * (t + 1)) (stepS (scoreT qb (kb t)) (vb t) (stateN qb kb vb t))
    rw [show 512 * (t + 1) = 512 * t + 512 by ring]
    refine stInv_step _ _ _ qr kr vr r (512 * t) 512 (by norm_num) le_rfl (fun k => ?_) (hv t (by omega)) ih
    rw [if_pos k.isLt]
    exact scoreT_apply qb (kb t) qr (fun k h => kr (512 * t + k.val) h) hq (hk t (by omega)) r k

/-- Row r of tile n, channel h: the softmax-weighted mean of the value rows of the keys 0 … 512 n + r. -/
theorem tileOut_apply (n : ℕ) (hn : n < 8) (qb : FVec Ideal S512x64 .bf16) (kb vb : ℕ → Vec Ideal S1x512x64 .f32)
    (qr : Fin 512 → Fin 64 → ℝ) (kr vr : ℕ → Fin 64 → ℝ)
    (hq : ∀ r h, qb (ix2 r h) = ((qr r h : ℝ) : EReal))
    (hk : ∀ t, t < n + 1 → ∀ (k : Fin 512) (h : Fin 64), kb t (ix3 0 k h) = ((kr (512 * t + k.val) h : ℝ) : EReal))
    (hv : ∀ t, t < n + 1 → ∀ (k : Fin 512) (h : Fin 64), vb t (ix3 0 k h) = ((vr (512 * t + k.val) h : ℝ) : EReal))
    (r : Fin 512) (h : Fin 64) :
    tileOut n (BitVec.ofNat 32 (512 * n)) qb kb vb (ix3 0 r h)
      = ((attnRow (wRow qr kr r) (fun j => vr j h) (512 * n + (r.val + 1)) : ℝ) : EReal) := by
  have hst := stInv_stateN qb kb vb qr kr vr (n + 1) hq hk hv r n (by omega)
  have hs : ∀ k : Fin 512, maskT (BitVec.ofNat 32 (512 * n)) (scoreT qb (kb n)) (ix2 r k)
      = if k.val < r.val + 1 then ((wRow qr kr r (512 * n + k.val) : ℝ) : EReal) else ⊥ := fun k => by
    rw [maskT_apply n hn, scoreT_apply qb (kb n) qr (fun k h => kr (512 * n + k.val) h) hq (hk n (by omega)) r k]
    by_cases hkr : k.val ≤ r.val
    · rw [if_pos hkr, if_pos (by omega)]; rfl
    · rw [if_neg hkr, if_neg (by omega)]
  have hfin := stInv_step (maskT (BitVec.ofNat 32 (512 * n)) (scoreT qb (kb n))) (vb n) (stateN qb kb vb n) qr kr vr r
    (512 * n) (r.val + 1) (by omega) (by have := r.isLt; omega) hs (hv n (by omega)) hst
  show shapeCast S1x512x64 (divf (stepS (maskT (BitVec.ofNat 32 (512 * n)) (scoreT qb (kb n))) (vb n) (stateN qb kb vb n)).acc
      (broadcastTo S512x64 (stepS (maskT (BitVec.ofNat 32 (512 * n)) (scoreT qb (kb n))) (vb n) (stateN qb kb vb n)).l
        broadcasts_S512x1_S512x64)) shapeCasts_S512x64_S1x512x64 (ix3 0 r h) = _
  rw [shapeCast_ab_1ab_apply, divf_apply, bcast_chan_apply]
  exact rowInv_final _ _ _ (by omega) _ _ _ hfin h

end Cert.KernelIdeal.Attn

end
-- ==== Proof.ProjValue.lean ====
/-
  The stored projections and their blocks, entry by entry: a projection's entry (R, h) is the sum over the 1024 model
  channels of x (R, c) · W (c, h); block n of 512 rows starts at row 512 n.
-/
import proofs.«410186_j39256001085546_3_alg».proof.Proof.TileDefs
import Idealize.ShloMosaic.Lib.ValueIdx
import Idealize.ShloMosaic.Lib.ValueLayout
import Idealize.ShloMosaic.PureOps.Ideal.Laws

set_option maxRecDepth 16384

noncomputable section

namespace Cert.KernelIdeal.Attn

open Cert.KernelIdeal Cert.KernelIdeal.Gen
open Idealize.ShloMosaic Idealize.ShloMosaic.TcCoe Idealize.ShloMosaic.ValueIdx

/-! The matrix product's operand indices, axis by axis: the left operand is read at (row of the result, contracted
    coordinate), the right operand at (contracted coordinate, column of the result). -/

private theorem lhs_proj_0 (i : S4096x64.Idx) (q : dot_S4096x1024_S1024x64_S4096x64_1_0_0_1_n_n.contr.Idx) :
    (dot_S4096x1024_S1024x64_S4096x64_1_0_0_1_n_n.lhsIdx i q 0).val = (i 0).val := by
  unfold DotDims.lhsIdx
  rw [dif_neg (show ¬(0 : Fin S4096x1024.rank) ∈ dot_S4096x1024_S1024x64_S4096x64_1_0_0_1_n_n.lhsBatch by decide), dif_pos (show (0 : Fin S4096x1024.rank) ∈ dot_S4096x1024_S1024x64_S4096x64_1_0_0_1_n_n.lhsNonContracting by decide)]
  rfl
private theorem lhs_proj_1 (i : S4096x64.Idx) (q : dot_S4096x1024_S1024x64_S4096x64_1_0_0_1_n_n.contr.Idx) :
    (dot_S4096x1024_S1024x64_S4096x64_1_0_0_1_n_n.lhsIdx i q 1).val = (q ⟨0, by decide⟩).val :=
  dot_S4096x1024_S1024x64_S4096x64_1_0_0_1_n_n.lhsIdx_val_of_single rfl i q
private theorem rhs_proj_0 (i : S4096x64.Idx) (q : dot_S4096x1024_S1024x64_S4096x64_1_0_0_1_n_n.contr.Idx) :
    (dot_S4096x1024_S1024x64_S4096x64_1_0_0_1_n_n.rhsIdx i q 0).val = (q ⟨0, by decide⟩).val :=
  dot_S4096x1024_S1024x64_S4096x64_1_0_0_1_n_n.rhsIdx_val_of_single rfl i q
private theorem rhs_proj_1 (i : S4096x64.Idx) (q : dot_S4096x1024_S1024x64_S4096x64_1_0_0_1_n_n.contr.Idx) :
    (dot_S4096x1024_S1024x64_S4096x64_1_0_0_1_n_n.rhsIdx i q 1).val = (i 1).val := by
  unfold DotDims.rhsIdx
  rw [dif_neg (show ¬(1 : Fin S1024x64.rank) ∈ dot_S4096x1024_S1024x64_S4096x64_1_0_0_1_n_n.rhsBatch by decide), dif_pos (show (1 : Fin S1024x64.rank) ∈ dot_S4096x1024_S1024x64_S4096x64_1_0_0_1_n_n.rhsNonContracting by decide)]
  rfl

/-- The product of the block x0, with its unit axis dropped, and a weight matrix, into zero: entry (R, h) is the sum
    over the contracted channel c of x0 (0, R, c) · w (c, h). -/
private theorem proj_apply (x0 : Vec Ideal S1x4096x1024 .f32) (w : Vec Ideal S1024x64 .f32) (R : Fin 4096) (h : Fin 64) :
    matmul (F := Ideal) (φ₁ := .f32) (φ₂ := .f32) dot_S4096x1024_S1024x64_S4096x64_1_0_0_1_n_n none (shapeCast S4096x1024 x0 shapeCasts_S1x4096x1024_S4096x1024) w
        (constant (F := Ideal) S4096x64 .f32 0x00000000#32) (ix2 R h)
      = ∑ c : Fin 1024, x0 (ix3 0 R c) * w (ix2 c h) := by
  simp only [matmul]
  rw [Ideal.matmul_constant_zero_apply, ← Equiv.sum_comp (contrEquiv1 dot_S4096x1024_S1024x64_S4096x64_1_0_0_1_n_n 1024 rfl rfl).symm]
  refine Finset.sum_congr rfl fun c _ => ?_
  have hk := contrEquiv1_symm_val dot_S4096x1024_S1024x64_S4096x64_1_0_0_1_n_n 1024 rfl rfl c
  have el : dot_S4096x1024_S1024x64_S4096x64_1_0_0_1_n_n.lhsIdx (ix2 R h) ((contrEquiv1 dot_S4096x1024_S1024x64_S4096x64_1_0_0_1_n_n 1024 rfl rfl).symm c) = ix2 R c := funext fun a => Fin.ext (by
    match a with
    | ⟨0, _⟩ => exact lhs_proj_0 _ _
    | ⟨1, _⟩ => exact (lhs_proj_1 _ _).trans hk)
  have er : dot_S4096x1024_S1024x64_S4096x64_1_0_0_1_n_n.rhsIdx (ix2 R h) ((contrEquiv1 dot_S4096x1024_S1024x64_S4096x64_1_0_0_1_n_n 1024 rfl rfl).symm c) = ix2 c h := funext fun a => Fin.ext (by
    match a with
    | ⟨0, _⟩ => exact (rhs_proj_0 _ _).trans hk
    | ⟨1, _⟩ => exact rhs_proj_1 _ _)
  rw [el, er, shapeCast_1ab_ab_apply]

/-- A block of 512 rows starting at row o: its entry (r, h) is the array's entry (o + r, h). -/
private theorem block2_apply (Q : FVec Ideal S4096x64 .f32) (o : ℕ)
    (inb : ∀ a, (![o, 0] : Fin 2 → ℕ) a + S512x64.size a ≤ S4096x64.size a) (r : Fin 512) (h : Fin 64)
    (R : Fin 4096) (hR : R.val = o + r.val) :
    Q ((Rect.unit (s := S4096x64) ![o, 0] S512x64.size inb).toLoadRect.idx (ix2 r h)) = Q (ix2 R h) :=
  congrArg Q (funext fun a => Fin.ext (by
    match a with
    | ⟨0, _⟩ => show o + 1 * r.val = R.val; omega
    | ⟨1, _⟩ => show 0 + 1 * h.val = h.val; omega))

/-- The same with a leading unit axis. -/
private theorem block3_apply (K : FVec Ideal S1x4096x64 .f32) (o : ℕ)
    (inb : ∀ a, (![0, o, 0] : Fin 3 → ℕ) a + S1x512x64.size a ≤ S1x4096x64.size a) (u : Fin 1) (k : Fin 512) (h : Fin 64)
    (R : Fin 4096) (hR : R.val = o + k.val) :
    K ((Rect.unit (s := S1x4096x64) ![0, o, 0] S1x512x64.size inb).toLoadRect.idx (ix3 u k h)) = K (ix3 0 R h) :=
  congrArg K (funext fun a => Fin.ext (by
    match a with
    | ⟨0, _⟩ => show 0 + 1 * u.val = 0; omega
    | ⟨1, _⟩ => show o + 1 * k.val = R.val; omega
    | ⟨2, _⟩ => show 0 + 1 * h.val = h.val; omega))

/-- The stored queries at row R, channel h. -/
theorem Qf_apply (x0 : Vec Ideal S1x4096x1024 .f32) (w : Vec Ideal S1024x64 .f32) (R : Fin 4096) (h : Fin 64) :
    Qf x0 w (ix2 R h) = ∑ c : Fin 1024, x0 (ix3 0 R c) * w (ix2 c h) := by
  unfold Qf
  rw [shapeCast_self]
  exact proj_apply x0 w R h

/-- The stored keys or values at row R, channel h. -/
theorem KVf_apply (x0 : Vec Ideal S1x4096x1024 .f32) (w : Vec Ideal S1024x64 .f32) (u : Fin 1) (R : Fin 4096) (h : Fin 64) :
    KVf x0 w (ix3 u R h) = ∑ c : Fin 1024, x0 (ix3 0 R c) * w (ix2 c h) := by
  unfold KVf
  rw [shapeCast_ab_1ab_apply]
  exact proj_apply x0 w R h

/-- Block n of the stored queries: its row r is row 512 n + r. -/
theorem qbL_apply (Q : FVec Ideal S4096x64 .f32) (n : ℕ) (hn : n < 8) (r : Fin 512) (h : Fin 64) :
    qbL Q n (ix2 r h) = Q (ix2 (⟨512 * n + r.val, by have := r.isLt; omega⟩ : Fin 4096) h) := by
  interval_cases n <;>
    exact block2_apply Q _ _ r h _ (by show _ * _ + r.val = _ + r.val; omega)

/-- Block n of the stored keys or values: its row k is row 512 n + k. -/
theorem kbL_apply (K : FVec Ideal S1x4096x64 .f32) (n : ℕ) (hn : n < 8) (u : Fin 1) (k : Fin 512) (h : Fin 64) :
    kbL K n (ix3 u k h) = K (ix3 0 (⟨512 * n + k.val, by have := k.isLt; omega⟩ : Fin 4096) h) := by
  interval_cases n <;>
    exact block3_apply K _ _ u k h _ (by show _ * _ + k.val = _ + k.val; omega)

end Cert.KernelIdeal.Attn

end
-- ==== Proof.Blocks.lean ====
/-
  The input blocks of a grid point as parts of the argument arrays: point t stages batch t of x and the three whole
  weight matrices; the outputs' blocks sit at batch t likewise.
-/
import proofs.«410186_j39256001085546_3_alg».proof.Proof.Gen.KernelIdeal.Value
import Idealize.ShloMosaic.Lib.ValueIdx

set_option maxRecDepth 16384

noncomputable section

namespace Cert.KernelIdeal.AttnValue

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The printed index maps over the four grid points: the batch axis moves with the point, the weights stay. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0
    ∧ win0_5.index t (0 : Fin 3) = t.val ∧ win0_5.index t (1 : Fin 3) = 0 ∧ win0_5.index t (2 : Fin 3) = 0
    ∧ win0_6.index t (0 : Fin 3) = t.val ∧ win0_6.index t (1 : Fin 3) = 0 ∧ win0_6.index t (2 : Fin 3) = 0 :=
  (by decide +kernel : ∀ t : Fin grid0.N, _)

/-- The four input blocks of a grid point, at their literal types. -/
abbrev xblk (c : Dev nD) (t : Fin cfg0.N) : Vec Ideal S1x4096x1024 .f32 := iblk m c 0 t
abbrev qwblk (c : Dev nD) (t : Fin cfg0.N) : Vec Ideal S1024x64 .f32 := iblk m c 1 t
abbrev kwblk (c : Dev nD) (t : Fin cfg0.N) : Vec Ideal S1024x64 .f32 := iblk m c 2 t
abbrev vwblk (c : Dev nD) (t : Fin cfg0.N) : Vec Ideal S1024x64 .f32 := iblk m c 3 t

/-- The batch a grid point works on. -/
def batchOf (t : Fin cfg0.N) : Fin 4 := ⟨t.val, t.isLt⟩

/-- Point t's block of x is batch t of the first argument. -/
theorem xblk_apply (c : Dev nD) (t : Fin cfg0.N) (u : Fin 1) (R : Fin 4096) (cc : Fin 1024) :
    xblk m c t (ix3 u R cc) = m ((c : Thread nD τ).loc main_arg0) (ix3 (batchOf t) R cc) := by
  show V m c main_arg0 (((cfg0.win 0).blk t).view.emb (ix3 u R cc)) = _
  obtain ⟨e0, e1, e2, -⟩ := idx_facts t
  refine congrArg (m ((c : Thread nD τ).loc main_arg0)) (funext fun a => Fin.ext ?_)
  match a with
  | ⟨0, _⟩ => show win0_0.index t (0 : Fin 3) * 1 + 1 * u.val = t.val; omega
  | ⟨1, _⟩ => show win0_0.index t (1 : Fin 3) * 4096 + 1 * R.val = R.val; omega
  | ⟨2, _⟩ => show win0_0.index t (2 : Fin 3) * 1024 + 1 * cc.val = cc.val; omega

/-- The weight blocks are the whole weight arguments: the second window stages the third argument (the query
    weights), the third window the second argument (the key weights), the fourth the fourth (the value weights). -/
theorem qwblk_apply (c : Dev nD) (t : Fin cfg0.N) (cc : Fin 1024) (h : Fin 64) :
    qwblk m c t (ix2 cc h) = m ((c : Thread nD τ).loc main_arg2) (ix2 cc h) := by
  show V m c main_arg2 (((cfg0.win 1).blk t).view.emb (ix2 cc h)) = _
  obtain ⟨-, -, -, e0, e1, -⟩ := idx_facts t
  refine congrArg (m ((c : Thread nD τ).loc main_arg2)) (funext fun a => Fin.ext ?_)
  match a with
  | ⟨0, _⟩ => show win0_1.index t (0 : Fin 2) * 1024 + 1 * cc.val = cc.val; omega
  | ⟨1, _⟩ => show win0_1.index t (1 : Fin 2) * 64 + 1 * h.val = h.val; omega
theorem kwblk_apply (c : Dev nD) (t : Fin cfg0.N) (cc : Fin 1024) (h : Fin 64) :
    kwblk m c t (ix2 cc h) = m ((c : Thread nD τ).loc main_arg1) (ix2 cc h) := by
  show V m c main_arg1 (((cfg0.win 2).blk t).view.emb (ix2 cc h)) = _
  obtain ⟨-, -, -, -, -, e0, e1, -⟩ := idx_facts t
  refine congrArg (m ((c : Thread nD τ).loc main_arg1)) (funext fun a => Fin.ext ?_)
  match a with
  | ⟨0, _⟩ => show win0_2.index t (0 : Fin 2) * 1024 + 1 * cc.val = cc.val; omega
  | ⟨1, _⟩ => show win0_2.index t (1 : Fin 2) * 64 + 1 * h.val = h.val; omega
theorem vwblk_apply (c : Dev nD) (t : Fin cfg0.N) (cc : Fin 1024) (h : Fin 64) :
    vwblk m c t (ix2 cc h) = m ((c : Thread nD τ).loc main_arg3) (ix2 cc h) := by
  show V m c main_arg3 (((cfg0.win 3).blk t).view.emb (ix2 cc h)) = _
  obtain ⟨-, -, -, -, -, -, -, e0, e1, -⟩ := idx_facts t
  refine congrArg (m ((c : Thread nD τ).loc main_arg3)) (funext fun a => Fin.ext ?_)
  match a with
  | ⟨0, _⟩ => show win0_3.index t (0 : Fin 2) * 1024 + 1 * cc.val = cc.val; omega
  | ⟨1, _⟩ => show win0_3.index t (1 : Fin 2) * 64 + 1 * h.val = h.val; omega

/-- An index of an output array is in point t's block iff its batch coordinate is t (the block spans the other two axes). -/
theorem mem_blk4 (t : Fin cfg0.N) (i : S4x4096x64.Idx) :
    i ∈ ((cfg0.win 4).blk t).view.set ↔ ∀ a : Fin 3, win0_4.index t a * S1x4096x64.size a ≤ (i a).val ∧ (i a).val < win0_4.index t a * S1x4096x64.size a + S1x4096x64.size a := by
  show i ∈ ((View.whole main_v0_0).slice (win0_4.rect t)).set ↔ _
  rw [View.set_slice_whole, Rect.mem_set_unit]
  exact Iff.rfl
theorem mem_blk5 (t : Fin cfg0.N) (i : S4x4096x64.Idx) :
    i ∈ ((cfg0.win 5).blk t).view.set ↔ ∀ a : Fin 3, win0_5.index t a * S1x4096x64.size a ≤ (i a).val ∧ (i a).val < win0_5.index t a * S1x4096x64.size a + S1x4096x64.size a := by
  show i ∈ ((View.whole main_v0_1).slice (win0_5.rect t)).set ↔ _
  rw [View.set_slice_whole, Rect.mem_set_unit]
  exact Iff.rfl
theorem mem_blk6 (t : Fin cfg0.N) (i : S4x4096x64.Idx) :
    i ∈ ((cfg0.win 6).blk t).view.set ↔ ∀ a : Fin 3, win0_6.index t a * S1x4096x64.size a ≤ (i a).val ∧ (i a).val < win0_6.index t a * S1x4096x64.size a + S1x4096x64.size a := by
  show i ∈ ((View.whole main_v0_2).slice (win0_6.rect t)).set ↔ _
  rw [View.set_slice_whole, Rect.mem_set_unit]
  exact Iff.rfl

/-- Every index of an output array is in the block of the point of its batch. -/
theorem cover4 (i : S4x4096x64.Idx) : ∃ t : Fin cfg0.N, (cfg0.win 4).flush t = true ∧ i ∈ ((cfg0.win 4).blk t).view.set := by
  have hi0 : (i 0).val < 4 := (i 0).isLt
  have hi1 : (i 1).val < 4096 := (i 1).isLt
  have hi2 : (i 2).val < 64 := (i 2).isLt
  refine ⟨⟨(i 0).val, hi0⟩, flush0_4 _, ?_⟩
  rw [mem_blk4]
  obtain ⟨-, -, -, -, -, -, -, -, -, e0, e1, e2, -⟩ := idx_facts ⟨(i 0).val, hi0⟩
  intro a
  match a with
  | ⟨0, _⟩ => show win0_4.index _ (0 : Fin 3) * 1 ≤ (i 0).val ∧ (i 0).val < win0_4.index _ (0 : Fin 3) * 1 + 1; rw [e0]; show (i 0).val * 1 ≤ (i 0).val ∧ (i 0).val < (i 0).val * 1 + 1; omega
  | ⟨1, _⟩ => show win0_4.index _ (1 : Fin 3) * 4096 ≤ (i 1).val ∧ (i 1).val < win0_4.index _ (1 : Fin 3) * 4096 + 4096; rw [e1]; omega
  | ⟨2, _⟩ => show win0_4.index _ (2 : Fin 3) * 64 ≤ (i 2).val ∧ (i 2).val < win0_4.index _ (2 : Fin 3) * 64 + 64; rw [e2]; omega
theorem cover5 (i : S4x4096x64.Idx) : ∃ t : Fin cfg0.N, (cfg0.win 5).flush t = true ∧ i ∈ ((cfg0.win 5).blk t).view.set := by
  have hi0 : (i 0).val < 4 := (i 0).isLt
  have hi1 : (i 1).val < 4096 := (i 1).isLt
  have hi2 : (i 2).val < 64 := (i 2).isLt
  refine ⟨⟨(i 0).val, hi0⟩, flush0_5 _, ?_⟩
  rw [mem_blk5]
  obtain ⟨-, -, -, -, -, -, -, -, -, -, -, -, e0, e1, e2, -⟩ := idx_facts ⟨(i 0).val, hi0⟩
  intro a
  match a with
  | ⟨0, _⟩ => show win0_5.index _ (0 : Fin 3) * 1 ≤ (i 0).val ∧ (i 0).val < win0_5.index _ (0 : Fin 3) * 1 + 1; rw [e0]; show (i 0).val * 1 ≤ (i 0).val ∧ (i 0).val < (i 0).val * 1 + 1; omega
  | ⟨1, _⟩ => show win0_5.index _ (1 : Fin 3) * 4096 ≤ (i 1).val ∧ (i 1).val < win0_5.index _ (1 : Fin 3) * 4096 + 4096; rw [e1]; omega
  | ⟨2, _⟩ => show win0_5.index _ (2 : Fin 3) * 64 ≤ (i 2).val ∧ (i 2).val < win0_5.index _ (2 : Fin 3) * 64 + 64; rw [e2]; omega
theorem cover6 (i : S4x4096x64.Idx) : ∃ t : Fin cfg0.N, (cfg0.win 6).flush t = true ∧ i ∈ ((cfg0.win 6).blk t).view.set := by
  have hi0 : (i 0).val < 4 := (i 0).isLt
  have hi1 : (i 1).val < 4096 := (i 1).isLt
  have hi2 : (i 2).val < 64 := (i 2).isLt
  refine ⟨⟨(i 0).val, hi0⟩, flush0_6 _, ?_⟩
  rw [mem_blk6]
  obtain ⟨-, -, -, -, -, -, -, -, -, -, -, -, -, -, -, e0, e1, e2⟩ := idx_facts ⟨(i 0).val, hi0⟩
  intro a
  match a with
  | ⟨0, _⟩ => show win0_6.index _ (0 : Fin 3) * 1 ≤ (i 0).val ∧ (i 0).val < win0_6.index _ (0 : Fin 3) * 1 + 1; rw [e0]; show (i 0).val * 1 ≤ (i 0).val ∧ (i 0).val < (i 0).val * 1 + 1; omega
  | ⟨1, _⟩ => show win0_6.index _ (1 : Fin 3) * 4096 ≤ (i 1).val ∧ (i 1).val < win0_6.index _ (1 : Fin 3) * 4096 + 4096; rw [e1]; omega
  | ⟨2, _⟩ => show win0_6.index _ (2 : Fin 3) * 64 ≤ (i 2).val ∧ (i 2).val < win0_6.index _ (2 : Fin 3) * 64 + 64; rw [e2]; omega

/-- An index inside point t's block of an output array, by coordinates: batch t, the block's row and channel. -/
theorem emb_blk4 (t : Fin cfg0.N) (u : Fin 1) (R : Fin 4096) (h : Fin 64) :
    ((cfg0.win 4).blk t).view.emb (ix3 u R h) = ix3 (batchOf t) R h := by
  obtain ⟨-, -, -, -, -, -, -, -, -, e0, e1, e2, -⟩ := idx_facts t
  refine funext fun a => Fin.ext ?_
  match a with
  | ⟨0, _⟩ => show win0_4.index t (0 : Fin 3) * 1 + 1 * u.val = t.val; omega
  | ⟨1, _⟩ => show win0_4.index t (1 : Fin 3) * 4096 + 1 * R.val = R.val; omega
  | ⟨2, _⟩ => show win0_4.index t (2 : Fin 3) * 64 + 1 * h.val = h.val; omega
theorem emb_blk5 (t : Fin cfg0.N) (u : Fin 1) (R : Fin 4096) (h : Fin 64) :
    ((cfg0.win 5).blk t).view.emb (ix3 u R h) = ix3 (batchOf t) R h := by
  obtain ⟨-, -, -, -, -, -, -, -, -, -, -, -, e0, e1, e2, -⟩ := idx_facts t
  refine funext fun a => Fin.ext ?_
  match a with
  | ⟨0, _⟩ => show win0_5.index t (0 : Fin 3) * 1 + 1 * u.val = t.val; omega
  | ⟨1, _⟩ => show win0_5.index t (1 : Fin 3) * 4096 + 1 * R.val = R.val; omega
  | ⟨2, _⟩ => show win0_5.index t (2 : Fin 3) * 64 + 1 * h.val = h.val; omega
theorem emb_blk6 (t : Fin cfg0.N) (u : Fin 1) (R : Fin 4096) (h : Fin 64) :
    ((cfg0.win 6).blk t).view.emb (ix3 u R h) = ix3 (batchOf t) R h := by
  obtain ⟨-, -, -, -, -, -, -, -, -, -, -, -, -, -, -, e0, e1, e2⟩ := idx_facts t
  refine funext fun a => Fin.ext ?_
  match a with
  | ⟨0, _⟩ => show win0_6.index t (0 : Fin 3) * 1 + 1 * u.val = t.val; omega
  | ⟨1, _⟩ => show win0_6.index t (1 : Fin 3) * 4096 + 1 * R.val = R.val; omega
  | ⟨2, _⟩ => show win0_6.index t (2 : Fin 3) * 64 + 1 * h.val = h.val; omega

end Cert.KernelIdeal.AttnValue

end
-- ==== Proof.AttnOut.lean ====
/-
  The kernel's attention output as a function of its arguments, for real inputs: at (b, R, h) it is the causal
  softmax-weighted mean, over the keys 0 … R of batch b, of the value rows. Each grid point stores its batch's 4096 rows as
  eight tiles of 512; tile n's row r is row 512 n + r, whose keys are the whole blocks 0 … n - 1 and the first r + 1 keys
  of block n.
-/
import proofs.«410186_j39256001085546_3_alg».proof.Proof.Gen.KernelIdeal.Value
import proofs.«410186_j39256001085546_3_alg».proof.Proof.TileRun
import proofs.«410186_j39256001085546_3_alg».proof.Proof.TileValue
import proofs.«410186_j39256001085546_3_alg».proof.Proof.ProjValue
import proofs.«410186_j39256001085546_3_alg».proof.Proof.Blocks
import proofs.«410186_j39256001085546_3_alg».proof.Proof.AttnSpec

set_option maxRecDepth 16384

noncomputable section

namespace Cert.KernelIdeal.AttnValue

open Cert.KernelIdeal Cert.KernelIdeal.Gen Cert.KernelIdeal.Attn Cert.AttnSpec
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)
variable (x : Fin 4 → Fin 4096 → Fin 1024 → ℝ) (wk wq wv : Fin 1024 → Fin 64 → ℝ)

/-- On device c the arguments hold real numbers: x, then the key, query and value weights (the program's argument order). -/
structure RealArgs (c : Dev nD) : Prop where
  hX : ∀ (b : Fin 4) (R : Fin 4096) (cc : Fin 1024),
    m ((c : Thread nD τ).loc main_arg0) (ix3 b R cc) = ((x b R cc : ℝ) : EReal)
  hk : ∀ (cc : Fin 1024) (h : Fin 64), m ((c : Thread nD τ).loc main_arg1) (ix2 cc h) = ((wk cc h : ℝ) : EReal)
  hq : ∀ (cc : Fin 1024) (h : Fin 64), m ((c : Thread nD τ).loc main_arg2) (ix2 cc h) = ((wq cc h : ℝ) : EReal)
  hv : ∀ (cc : Fin 1024) (h : Fin 64), m ((c : Thread nD τ).loc main_arg3) (ix2 cc h) = ((wv cc h : ℝ) : EReal)

variable {m x wk wq wv}

/-- The stored queries of point t are the real projection of batch t by the query weights. -/
theorem Qf_real {c : Dev nD} (ha : RealArgs m x wk wq wv c) (t : Fin cfg0.N) (R : Fin 4096) (h : Fin 64) :
    Qf (xblk m c t) (qwblk m c t) (ix2 R h) = ((proj1 (x (batchOf t)) wq R h : ℝ) : EReal) := by
  rw [Qf_apply]
  unfold proj1
  rw [coe_sum]
  refine Finset.sum_congr rfl fun cc _ => ?_
  rw [xblk_apply, qwblk_apply, ha.hX, ha.hq, EReal.coe_mul]

/-- The stored keys and values likewise. -/
theorem Kf_real {c : Dev nD} (ha : RealArgs m x wk wq wv c) (t : Fin cfg0.N) (u : Fin 1) (R : Fin 4096) (h : Fin 64) :
    KVf (xblk m c t) (kwblk m c t) (ix3 u R h) = ((proj1 (x (batchOf t)) wk R h : ℝ) : EReal) := by
  rw [KVf_apply]
  unfold proj1
  rw [coe_sum]
  refine Finset.sum_congr rfl fun cc _ => ?_
  rw [xblk_apply, kwblk_apply, ha.hX, ha.hk, EReal.coe_mul]
theorem Vf_real {c : Dev nD} (ha : RealArgs m x wk wq wv c) (t : Fin cfg0.N) (u : Fin 1) (R : Fin 4096) (h : Fin 64) :
    KVf (xblk m c t) (vwblk m c t) (ix3 u R h) = ((proj1 (x (batchOf t)) wv R h : ℝ) : EReal) := by
  rw [KVf_apply]
  unfold proj1
  rw [coe_sum]
  refine Finset.sum_congr rfl fun cc _ => ?_
  rw [xblk_apply, vwblk_apply, ha.hX, ha.hv, EReal.coe_mul]

/-- Row r, channel h of tile n at point t: causal attention at row 512 n + r of batch t. -/
theorem tile_apply {c : Dev nD} (ha : RealArgs m x wk wq wv c) (t : Fin cfg0.N) (n : ℕ) (hn : n < 8) (r : Fin 512) (h : Fin 64) :
    tileOf n (BitVec.ofNat 32 (512 * n)) (xblk m c t) (qwblk m c t) (kwblk m c t) (vwblk m c t) (ix3 0 r h)
      = ((attn1 (proj1 (x (batchOf t)) wq) (proj1 (x (batchOf t)) wk) (proj1 (x (batchOf t)) wv)
          (⟨512 * n + r.val, by have := r.isLt; omega⟩ : Fin 4096) h : ℝ) : EReal) := by
  unfold tileOf
  rw [tileOut_apply n hn _ _ _
    (fun (r : Fin 512) (h : Fin 64) => proj1 (x (batchOf t)) wq (⟨512 * n + r.val, by have := r.isLt; omega⟩ : Fin 4096) h)
    (fun (j : ℕ) (h : Fin 64) => ext (fun j' => proj1 (x (batchOf t)) wk j' h) j)
    (fun (j : ℕ) (h : Fin 64) => ext (fun j' => proj1 (x (batchOf t)) wv j' h) j)
    (fun r h => by rw [truncf_apply, qbL_apply _ n hn, Qf_real ha])
    (fun t' ht' k h => by
      have hk := k.isLt
      rw [kbL_apply _ t' (by omega), Kf_real ha]
      unfold ext
      rw [dif_pos (by omega : 512 * t' + k.val < 4096)])
    (fun t' ht' k h => by
      have hk := k.isLt
      rw [kbL_apply _ t' (by omega), Vf_real ha]
      unfold ext
      rw [dif_pos (by omega : 512 * t' + k.val < 4096)])
    r h]
  rfl

/-- An index inside tile n's rectangle of a point's output block, by coordinates. -/
theorem emb_tile (n : ℕ) (inb : ∀ a, (![0, 512 * n, 0] : Fin 3 → ℕ) a + S1x512x64.size a ≤ S1x4096x64.size a)
    (u : Fin 1) (r : Fin 512) (h : Fin 64) (hR : 512 * n + r.val < 4096) :
    (Rect.unit (s := S1x4096x64) ![0, 512 * n, 0] S1x512x64.size inb).emb (ix3 u r h)
      = ix3 (0 : Fin 1) (⟨512 * n + r.val, hR⟩ : Fin 4096) h := by
  refine funext fun a => Fin.ext ?_
  match a with
  | ⟨0, _⟩ => show 0 + 1 * u.val = 0; omega
  | ⟨1, _⟩ => show 512 * n + 1 * r.val = 512 * n + r.val; omega
  | ⟨2, _⟩ => show 0 + 1 * h.val = h.val; omega

/-- What point t's block of the attention output holds, by the block's own index. -/
def Gblk (x : Fin 4 → Fin 4096 → Fin 1024 → ℝ) (wk wq wv : Fin 1024 → Fin 64 → ℝ) (t : Fin cfg0.N) : S1x4096x64.Idx → EReal :=
  fun y => outSpec x wq wk wv (((cfg0.win 4).blk t).view.emb y)

/-- Tile n's piece agrees with the block's function on its rectangle. -/
theorem piece_ok {c : Dev nD} (ha : RealArgs m x wk wq wv c) (t : Fin cfg0.N) (n : ℕ) (hn : n < 8)
    (inb : ∀ a, (![0, 512 * n, 0] : Fin 3 → ℕ) a + S1x512x64.size a ≤ S1x4096x64.size a) (y : S1x512x64.Idx) :
    tileOf n (BitVec.ofNat 32 (512 * n)) (xblk m c t) (qwblk m c t) (kwblk m c t) (vwblk m c t) y
      = Gblk x wk wq wv t ((Rect.unit (s := S1x4096x64) ![0, 512 * n, 0] S1x512x64.size inb).emb y) := by
  obtain ⟨u, r, h, rfl⟩ : ∃ (u : Fin 1) (r : Fin 512) (h : Fin 64), y = ix3 u r h := ⟨y 0, y 1, y 2, eq_ix3 y⟩
  have hu : u = 0 := Fin.ext (by omega)
  subst hu
  have hR : 512 * n + r.val < 4096 := by have := r.isLt; omega
  rw [tile_apply ha t n hn r h]
  unfold Gblk
  rw [emb_tile n inb 0 r h hR, emb_blk4]
  rfl

/-- What point t writes back to the attention output: block t of the closed form. -/
theorem flushed4_eq {c : Dev nD} (ha : RealArgs m x wk wq wv c) (t : Fin cfg0.N) :
    (dats m 0 c).flushed 4 t = ((cfg0.win 4).blk t).view.read (Elt Ideal) (outSpec x wq wk wv) := by
  rw [Cert.KernelIdeal.Value.flushed4_A]
  funext j
  show out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) j = Gblk x wk wq wv t j
  unfold out0_A_4
  rw [View.read_writes_eq_canon _ _ _ (cover0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t))]
  have hcov := cover0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) j
  rw [pieces4_eq] at hcov ⊢
  refine View.canon_apply_of_pieces (Gblk x wk wq wv t) _ (fun p hp y => ?_) j hcov
  simp only [List.mem_cons, List.not_mem_nil, or_false] at hp
  rcases hp with rfl | rfl | rfl | rfl | rfl | rfl | rfl | rfl
  · exact piece_ok ha t 7 (by norm_num) inb_S1x4096x64_S1x512x64_0_3584_0 y
  · exact piece_ok ha t 6 (by norm_num) inb_S1x4096x64_S1x512x64_0_3072_0 y
  · exact piece_ok ha t 5 (by norm_num) inb_S1x4096x64_S1x512x64_0_2560_0 y
  · exact piece_ok ha t 4 (by norm_num) inb_S1x4096x64_S1x512x64_0_2048_0 y
  · exact piece_ok ha t 3 (by norm_num) inb_S1x4096x64_S1x512x64_0_1536_0 y
  · exact piece_ok ha t 2 (by norm_num) inb_S1x4096x64_S1x512x64_0_1024_0 y
  · exact piece_ok ha t 1 (by norm_num) inb_S1x4096x64_S1x512x64_0_512_0 y
  · exact piece_ok ha t 0 (by norm_num) inb_S1x4096x64_S1x512x64_0_0_0 y

/-- The attention output (first result) ends holding causal attention of the three real projections. -/
theorem final4 {c : Dev nD} (ha : RealArgs m x wk wq wv c) :
    (dats m 0 c).arrAt 4 cfg0.N = outSpec x wq wk wv :=
  (dats m 0 c).arrAt_eq_of_cover 4 _ (fun t _ => flushed4_eq ha t) cover4

end Cert.KernelIdeal.AttnValue

end
-- ==== Proof.KVOut.lean ====
/-
  The kernel's keys and values outputs as functions of its arguments: each grid point stores, as one whole block, the
  projection of its batch of x by the key (resp. value) weights, and the four blocks tile the output array.
-/
import proofs.«410186_j39256001085546_3_alg».proof.Proof.Gen.KernelIdeal.Value
import proofs.«410186_j39256001085546_3_alg».proof.Proof.TileRun
import proofs.«410186_j39256001085546_3_alg».proof.Proof.ProjValue
import proofs.«410186_j39256001085546_3_alg».proof.Proof.Blocks
import proofs.«410186_j39256001085546_3_alg».proof.Proof.AttnSpec

set_option maxRecDepth 16384

noncomputable section

namespace Cert.KernelIdeal.AttnValue

open Cert.KernelIdeal Cert.KernelIdeal.Gen Cert.KernelIdeal.Attn Cert.AttnSpec
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- What grid point t writes back to the keys output is block t of the projection: the point's run stores ONE whole
    piece, the product of its block of x (batch t of the first argument) and its block of the keys weights (the whole
    weight argument), and entry (R, h) of that product is the sum over the channels. -/
theorem flushed5_eq (c : Dev nD) (t : Fin cfg0.N) :
    (dats m 0 c).flushed 5 t = ((cfg0.win 5).blk t).view.read (Elt Ideal)
      (projSpec (m ((c : Thread nD τ).loc main_arg0)) (m ((c : Thread nD τ).loc main_arg1))) := by
  rw [Value.flushed5_A]
  funext j
  show out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) j
      = projSpec (m ((c : Thread nD τ).loc main_arg0)) (m ((c : Thread nD τ).loc main_arg1)) (((cfg0.win 5).blk t).view.emb j)
  unfold out0_A_5
  rw [View.read_writes_eq_canon _ _ _ (cover0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t))]
  rw [pieces5_eq]
  rw [View.canon_unit_zero zeros3]
  obtain ⟨u, R, h, rfl⟩ : ∃ (u : Fin 1) (R : Fin 4096) (h : Fin 64), j = ix3 u R h := ⟨j 0, j 1, j 2, eq_ix3 j⟩
  rw [KVf_apply, emb_blk5]
  unfold projSpec
  refine Finset.sum_congr rfl fun cc _ => ?_
  exact congrArg₂ (· * ·) (xblk_apply m c t 0 R cc) (kwblk_apply m c t cc h)

/-- The keys output (second result) ends holding the projection of the first argument by the second. -/
theorem final5 (c : Dev nD) :
    (dats m 0 c).arrAt 5 cfg0.N
      = projSpec (m ((c : Thread nD τ).loc main_arg0)) (m ((c : Thread nD τ).loc main_arg1)) := by
  exact (dats m 0 c).arrAt_eq_of_cover 5 _ (fun t _ => flushed5_eq m c t) cover5

/-- What grid point t writes back to the values output is block t of the projection: the point's run stores ONE whole
    piece, the product of its block of x (batch t of the first argument) and its block of the values weights (the whole
    weight argument), and entry (R, h) of that product is the sum over the channels. -/
theorem flushed6_eq (c : Dev nD) (t : Fin cfg0.N) :
    (dats m 0 c).flushed 6 t = ((cfg0.win 6).blk t).view.read (Elt Ideal)
      (projSpec (m ((c : Thread nD τ).loc main_arg0)) (m ((c : Thread nD τ).loc main_arg3))) := by
  rw [Value.flushed6_A]
  funext j
  show out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) j
      = projSpec (m ((c : Thread nD τ).loc main_arg0)) (m ((c : Thread nD τ).loc main_arg3)) (((cfg0.win 6).blk t).view.emb j)
  unfold out0_A_6
  rw [View.read_writes_eq_canon _ _ _ (cover0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t))]
  rw [pieces6_eq]
  rw [View.canon_unit_zero zeros3]
  obtain ⟨u, R, h, rfl⟩ : ∃ (u : Fin 1) (R : Fin 4096) (h : Fin 64), j = ix3 u R h := ⟨j 0, j 1, j 2, eq_ix3 j⟩
  rw [KVf_apply, emb_blk6]
  unfold projSpec
  refine Finset.sum_congr rfl fun cc _ => ?_
  exact congrArg₂ (· * ·) (xblk_apply m c t 0 R cc) (vwblk_apply m c t cc h)

/-- The values output (third result) ends holding the projection of the first argument by the fourth. -/
theorem final6 (c : Dev nD) :
    (dats m 0 c).arrAt 6 cfg0.N
      = projSpec (m ((c : Thread nD τ).loc main_arg0)) (m ((c : Thread nD τ).loc main_arg3)) := by
  exact (dats m 0 c).arrAt_eq_of_cover 6 _ (fun t _ => flushed6_eq m c t) cover6

end Cert.KernelIdeal.AttnValue

end
-- ==== Proof.RefValue.lean ====
/-
  The reference's three results as functions of its arguments, index by index.
  Its keys and values are the plain projections x · W. Its attention output at (b, r, h) is, over the extended reals,
  ∑_j softmax_j · v_j,h where the scores (q_r · k_j) / √64 are replaced by -∞ at the keys j > r, the row maximum M is
  subtracted, and the exponentials are divided by their sum: with real inputs the masked terms vanish (exp (-∞) = 0), √64 = 8,
  and the quotient is the softmax-weighted mean over the keys j ≤ r, whatever M is.
-/
import proofs.«410186_j39256001085546_3_alg».proof.Proof.Gen.ReferenceIdeal.Read
import proofs.«410186_j39256001085546_3_alg».proof.Proof.AttnSpec
import proofs.«410186_j39256001085546_3_alg».proof.Proof.Consts
import Idealize.ShloMosaic.Lib.StableHlo.Predicate

noncomputable section

namespace Cert.ReferenceIdeal.RefValue

open Cert.ReferenceIdeal Cert.ReferenceIdeal.Gen Cert.ReferenceIdeal.Read Cert.AttnSpec
open Idealize.ShloMosaic Idealize.ShloMosaic.TcCoe Idealize.ShloMosaic.ValueIdx

/-! ## The softmax of a causally masked row, on the extended reals -/

/-- The coercion of the reals into the extended reals commutes with finite sums. -/
theorem coe_sum {ι : Type} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A sum over the first n naturals of a function that vanishes beyond r < n is the sum over the first r + 1. -/
theorem sum_range_ite (n r : ℕ) (hr : r < n) (f : ℕ → ℝ) :
    ∑ j ∈ Finset.range n, (if j ≤ r then f j else 0) = ∑ j ∈ Finset.range (r + 1), f j := by
  rw [← Finset.sum_filter]
  refine Finset.sum_congr ?_ fun _ _ => rfl
  ext j
  simp only [Finset.mem_filter, Finset.mem_range]
  omega

/-- The maximum of a row whose visible entries j ≤ r are reals and whose other entries are -∞ is a real. -/
theorem rowmax_real (n r : ℕ) (hr : r < n) (w : ℕ → ℝ) (ms : Fin n → EReal)
    (hms : ∀ j : Fin n, ms j = if j.val ≤ r then ((w j.val : ℝ) : EReal) else ⊥) :
    ∃ M : ℝ, max ⊥ (Finset.univ.fold max ⊥ ms) = (M : EReal) := by
  have hlt : Finset.univ.fold max ⊥ ms < ⊤ := by
    rw [Finset.fold_max_lt]
    refine ⟨bot_lt_top, fun j _ => ?_⟩
    rw [hms j]
    split
    · exact EReal.coe_lt_top _
    · exact bot_lt_top
  have hge : ((w 0 : ℝ) : EReal) ≤ Finset.univ.fold max ⊥ ms := by
    rw [Finset.le_fold_max]
    refine Or.inr ⟨⟨0, by omega⟩, Finset.mem_univ _, ?_⟩
    rw [hms ⟨0, by omega⟩, if_pos (Nat.zero_le r)]
  refine ⟨(Finset.univ.fold max ⊥ ms).toReal, ?_⟩
  rw [max_eq_right bot_le, EReal.coe_toReal hlt.ne (ne_of_gt (lt_of_lt_of_le (EReal.bot_lt_coe _) hge))]

/-- Softmax over the extended reals of a causally masked row, followed by the weighted sum of the value column:
    the masked entries contribute exp (-∞) = 0, the row maximum M is a real and cancels in the quotient. -/
theorem softmax_row (n r : ℕ) (hr : r < n) (w vv : ℕ → ℝ) (ms V : Fin n → EReal)
    (hms : ∀ j : Fin n, ms j = if j.val ≤ r then ((w j.val : ℝ) : EReal) else ⊥)
    (hV : ∀ j : Fin n, V j = ((vv j.val : ℝ) : EReal)) :
    ∑ j : Fin n, Ideal.div (Ideal.exp (ms j - max ⊥ (Finset.univ.fold max ⊥ ms)))
        (0 + ∑ j' : Fin n, Ideal.exp (ms j' - max ⊥ (Finset.univ.fold max ⊥ ms))) * V j
      = ((attnRow w vv (r + 1) : ℝ) : EReal) := by
  obtain ⟨M, hM⟩ := rowmax_real n r hr w ms hms
  rw [hM]
  -- the exponentials: exp (w j - M) at the visible keys, 0 at the others
  have he : ∀ j : Fin n, Ideal.exp (ms j - (M : EReal))
      = (((if j.val ≤ r then Real.exp (w j.val - M) else 0) : ℝ) : EReal) := by
    intro j
    rw [hms j]
    split
    · rw [← EReal.coe_sub, Ideal.exp_coe]
    · rw [EReal.bot_sub, Ideal.exp_bot, EReal.coe_zero]
  -- their sum Z is a positive real
  have hZpos : 0 < ∑ j ∈ Finset.range (r + 1), Real.exp (w j - M) :=
    Finset.sum_pos (fun j _ => Real.exp_pos _) ⟨0, Finset.mem_range.mpr (Nat.succ_pos r)⟩
  have hZ : (0 : EReal) + ∑ j' : Fin n, Ideal.exp (ms j' - (M : EReal))
      = ((∑ j ∈ Finset.range (r + 1), Real.exp (w j - M) : ℝ) : EReal) := by
    rw [zero_add, Finset.sum_congr rfl fun j _ => he j, ← coe_sum,
      Fin.sum_univ_eq_sum_range (fun j => if j ≤ r then Real.exp (w j - M) else 0) n, sum_range_ite n r hr]
  rw [hZ]
  -- each term is a real
  have ht : ∀ j : Fin n, Ideal.div (Ideal.exp (ms j - (M : EReal)))
        ((∑ j ∈ Finset.range (r + 1), Real.exp (w j - M) : ℝ) : EReal) * V j
      = (((if j.val ≤ r then Real.exp (w j.val - M) / (∑ j ∈ Finset.range (r + 1), Real.exp (w j - M)) * vv j.val else 0) : ℝ) : EReal) := by
    intro j
    rw [Ideal.div_coe hZpos.ne', he j, hV j, ← EReal.coe_mul, ← EReal.coe_mul]
    split
    · rw [mul_one_div]
    · rw [zero_mul, zero_mul]
  rw [Finset.sum_congr rfl fun j _ => ht j, ← coe_sum,
    Fin.sum_univ_eq_sum_range (fun j => if j ≤ r then Real.exp (w j - M) / (∑ j ∈ Finset.range (r + 1), Real.exp (w j - M)) * vv j else 0) n,
    sum_range_ite n r hr]
  -- the maximum cancels
  refine congrArg _ ?_
  unfold attnRow
  have hS : ∑ j ∈ Finset.range (r + 1), Real.exp (w j - M) = (∑ j ∈ Finset.range (r + 1), Real.exp (w j)) / Real.exp M := by
    rw [Finset.sum_div]
    exact Finset.sum_congr rfl fun j _ => Real.exp_sub _ _
  have hSpos : 0 < ∑ j ∈ Finset.range (r + 1), Real.exp (w j) :=
    Finset.sum_pos (fun j _ => Real.exp_pos _) ⟨0, Finset.mem_range.mpr (Nat.succ_pos r)⟩
  rw [hS, Finset.sum_div (Finset.range (r + 1)) (fun j => Real.exp (w j) * vv j)]
  refine Finset.sum_congr rfl fun j _ => ?_
  rw [Real.exp_sub]
  have := Real.exp_pos M
  field_simp

/-! ## The projections -/

/-- The reference's keys (its first dot_general) are the projection of x by its second argument. -/
theorem ref_k (X : (⟨S4x4096x1024, .f32⟩ : BufTy).Contents (Elt Ideal)) (W : (⟨S1024x64, .f32⟩ : BufTy).Contents (Elt Ideal)) :
    Read.val_main_v0 (F := Ideal) X W = projSpec X W := by
  funext i
  rw [val_main_v0_apply]
  refine Finset.sum_congr rfl fun c _ => ?_
  have el : lidx_main_v0 i c = ix3 (i 0) (i 1) c :=
    funext fun a => Fin.ext (by match a with | ⟨0, _⟩ => rfl | ⟨1, _⟩ => rfl | ⟨2, _⟩ => rfl)
  have er : ridx_main_v0 i c = ix2 c (i 2) :=
    funext fun a => Fin.ext (by match a with | ⟨0, _⟩ => rfl | ⟨1, _⟩ => rfl)
  rw [el, er]
  rfl

/-- The reference's queries (its second dot_general) are the projection of x by its third argument. -/
theorem ref_q (X : (⟨S4x4096x1024, .f32⟩ : BufTy).Contents (Elt Ideal)) (W : (⟨S1024x64, .f32⟩ : BufTy).Contents (Elt Ideal)) :
    Read.val_main_v1 (F := Ideal) X W = projSpec X W := by
  funext i
  rw [val_main_v1_apply]
  refine Finset.sum_congr rfl fun c _ => ?_
  have el : lidx_main_v1 i c = ix3 (i 0) (i 1) c :=
    funext fun a => Fin.ext (by match a with | ⟨0, _⟩ => rfl | ⟨1, _⟩ => rfl | ⟨2, _⟩ => rfl)
  have er : ridx_main_v1 i c = ix2 c (i 2) :=
    funext fun a => Fin.ext (by match a with | ⟨0, _⟩ => rfl | ⟨1, _⟩ => rfl)
  rw [el, er]
  rfl

/-- The reference's values (its third dot_general) are the projection of x by its fourth argument. -/
theorem ref_v (X : (⟨S4x4096x1024, .f32⟩ : BufTy).Contents (Elt Ideal)) (W : (⟨S1024x64, .f32⟩ : BufTy).Contents (Elt Ideal)) :
    Read.val_main_v2 (F := Ideal) X W = projSpec X W := by
  funext i
  rw [val_main_v2_apply]
  refine Finset.sum_congr rfl fun c _ => ?_
  have el : lidx_main_v2 i c = ix3 (i 0) (i 1) c :=
    funext fun a => Fin.ext (by match a with | ⟨0, _⟩ => rfl | ⟨1, _⟩ => rfl | ⟨2, _⟩ => rfl)
  have er : ridx_main_v2 i c = ix2 c (i 2) :=
    funext fun a => Fin.ext (by match a with | ⟨0, _⟩ => rfl | ⟨1, _⟩ => rfl)
  rw [el, er]
  rfl

/-- A projection of arrays of coerced reals is, entry by entry, the coerced real projection. -/
theorem proj_real (x : Fin 4 → Fin 4096 → Fin 1024 → ℝ) (w : Fin 1024 → Fin 64 → ℝ)
    (X : (⟨S4x4096x1024, .f32⟩ : BufTy).Contents (Elt Ideal)) (W : (⟨S1024x64, .f32⟩ : BufTy).Contents (Elt Ideal))
    (hX : ∀ i : S4x4096x1024.Idx, X i = ((x (i 0) (i 1) (i 2) : ℝ) : EReal))
    (hW : ∀ i : S1024x64.Idx, W i = ((w (i 0) (i 1) : ℝ) : EReal)) (b : Fin 4) (r : Fin 4096) (h : Fin 64) :
    projSpec X W (ix3 b r h) = ((proj1 (x b) w r h : ℝ) : EReal) := by
  unfold projSpec proj1
  rw [coe_sum]
  refine Finset.sum_congr rfl fun c _ => ?_
  rw [hX, hW, ← EReal.coe_mul]

/-! ## The scores -/

section Real

variable (x : Fin 4 → Fin 4096 → Fin 1024 → ℝ) (wk wq wv : Fin 1024 → Fin 64 → ℝ)
  (X : (⟨S4x4096x1024, .f32⟩ : BufTy).Contents (Elt Ideal)) (Wk Wq Wv : (⟨S1024x64, .f32⟩ : BufTy).Contents (Elt Ideal))
  (hX : ∀ i : S4x4096x1024.Idx, X i = ((x (i 0) (i 1) (i 2) : ℝ) : EReal))
  (hk : ∀ i : S1024x64.Idx, Wk i = ((wk (i 0) (i 1) : ℝ) : EReal))
  (hq : ∀ i : S1024x64.Idx, Wq i = ((wq (i 0) (i 1) : ℝ) : EReal))
  (hv : ∀ i : S1024x64.Idx, Wv i = ((wv (i 0) (i 1) : ℝ) : EReal))

include hX hk hq in
/-- The unscaled score of query row r against key row j is the real inner product of the two projected rows. -/
theorem v3_real (b : Fin 4) (r j : Fin 4096) :
    val_main_v3 (F := Ideal) X Wk Wq (ix3 b r j)
      = ((∑ h : Fin 64, proj1 (x b) wq r h * proj1 (x b) wk j h : ℝ) : EReal) := by
  rw [val_main_v3_apply, coe_sum]
  refine Finset.sum_congr rfl fun h _ => ?_
  have el : lidx_main_v3 (ix3 b r j) h = ix3 b r h :=
    funext fun a => Fin.ext (by match a with | ⟨0, _⟩ => rfl | ⟨1, _⟩ => rfl | ⟨2, _⟩ => rfl)
  have er : ridx_main_v3 (ix3 b r j) h = ix3 b j h :=
    funext fun a => Fin.ext (by match a with | ⟨0, _⟩ => rfl | ⟨1, _⟩ => rfl | ⟨2, _⟩ => rfl)
  rw [el, er, ref_q, ref_k, proj_real x wq X Wq hX hq, proj_real x wk X Wk hX hk, ← EReal.coe_mul]

/-- The divisor: the square root of the constant 64 is 8. -/
theorem v5_real (i : S4x4096x4096.Idx) : val_main_v5 (F := Ideal) i = ((8 : ℝ) : EReal) := by
  rw [val_main_v5_apply, val_main_v4_apply, val_main_cst_apply, Ideal.hostUnary_sqrt_def, Ideal.ofBits_def,
    Consts.ofBits_64, Ideal.sqrt_coe, if_neg (by norm_num)]
  refine congrArg _ ?_
  rw [show (64 : ℝ) = 8 ^ 2 by norm_num, Real.sqrt_sq (by norm_num)]

include hX hk hq in
/-- The scaled score is the real score1. -/
theorem v6_real (b : Fin 4) (r j : Fin 4096) :
    val_main_v6 (F := Ideal) X Wk Wq (ix3 b r j)
      = ((score1 (proj1 (x b) wq) (proj1 (x b) wk) r j.val : ℝ) : EReal) := by
  rw [val_main_v6_apply, Ideal.hostDivf_def, v5_real, v3_real x wk wq X Wk Wq hX hk hq,
    Ideal.div_coe (by norm_num : (8 : ℝ) ≠ 0), ← EReal.coe_mul]
  unfold score1 ext
  simp only [dif_pos j.isLt]

/-! ## The causal mask -/

/-- The mask at (r, j) compares the two positions as signed words. -/
theorem mask_read (b : Fin 4) (r j : Fin 4096) :
    val_main_call0_v1 (F := Ideal) (ix3 b r j) = IntOp.cmpi .sge (BitVec.ofNat 32 r.val) (BitVec.ofNat 32 j.val) := by
  rw [val_main_call0_v1_apply, val_main_v14_apply, val_main_v13_apply, val_main_v11_apply, val_main_v8_apply,
    val_main_v7_apply, val_main_v12_apply, val_main_v10_apply, val_main_v9_apply]

/-- Both positions are below 4096, so the signed comparison is the comparison of the naturals: the key j is visible to
    the query r exactly when j ≤ r. -/
theorem mask_iff (b : Fin 4) (r j : Fin 4096) :
    val_main_call0_v1 (F := Ideal) (ix3 b r j) = 1#1 ↔ j.val ≤ r.val := by
  have hr : (BitVec.ofNat 32 r.val).toNat = r.val := by
    rw [BitVec.toNat_ofNat]; exact Nat.mod_eq_of_lt (by have := r.isLt; omega)
  have hj : (BitVec.ofNat 32 j.val).toNat = j.val := by
    rw [BitVec.toNat_ofNat]; exact Nat.mod_eq_of_lt (by have := j.isLt; omega)
  rw [mask_read, StableHlo.Predicate.sge_iff_toNat (by rw [hr]; have := r.isLt; omega) (by rw [hj]; have := j.isLt; omega), hr, hj]

include hX hk hq in
/-- The masked score: the real score at the visible keys, -∞ at the others. -/
theorem v15_real (b : Fin 4) (r j : Fin 4096) :
    val_main_v15 (F := Ideal) X Wk Wq (ix3 b r j)
      = if j.val ≤ r.val then ((score1 (proj1 (x b) wq) (proj1 (x b) wk) r j.val : ℝ) : EReal) else ⊥ := by
  rw [val_main_v15_apply, val_main_call0_v2_apply, val_main_call0_v0_apply, val_main_cst_0_apply, Ideal.ofBits_def,
    Consts.ofBits_neg_inf, v6_real x wk wq X Wk Wq hX hk hq]
  by_cases h : j.val ≤ r.val
  · rw [if_pos h, (mask_iff b r j).mpr h, select_one]
  · rw [if_neg h, eq_zero_of_ne_one fun hc => h ((mask_iff b r j).mp hc), select_zero]

end Real

/-! ## The softmax, read off the stages -/

/-- A maximum reduction over the key axis from -∞ is, at (b, r), the fold of max over the row's entries. -/
theorem rowmax_read (y : (⟨S4x4096x4096, .f32⟩ : BufTy).Contents (Elt Ideal)) (b : Fin 4) (r : Fin 4096) :
    Host.reduce (α := Ideal .f32) (FloatOps.maximumf (F := Ideal) (φ := .f32)) y (val_main_cst_1 (F := Ideal)) reducesTo_S4x4096x4096_S4x4096_d2 h_S_ (ix2 b r)
      = (Finset.univ : Finset (Fin 4096)).fold max ⊥ (fun k => y (ix3 b r k)) := by
  have h : S4x4096x4096.Reduces [2] S4x4096 := by decide
  refine (Host.reduce_eq_fold_single (FloatOps.maximumf (F := Ideal) (φ := .f32)) y _ reducesTo_S4x4096x4096_S4x4096_d2 h h_S_ (ix2 b r)).trans ?_
  rw [val_main_cst_1_apply, Ideal.ofBits_def, Consts.ofBits_neg_inf]
  have hl : (y ∘ h.lift (ix2 b r)) = fun k : Fin 4096 => y (ix3 b r k) :=
    funext fun k => congrArg y (funext fun a => Fin.ext (by match a with | ⟨0, _⟩ => rfl | ⟨1, _⟩ => rfl | ⟨2, _⟩ => rfl))
  rw [hl]
  rfl

variable (X : (⟨S4x4096x1024, .f32⟩ : BufTy).Contents (Elt Ideal)) (Wk Wq Wv : (⟨S1024x64, .f32⟩ : BufTy).Contents (Elt Ideal))

/-- The row maximum the reference subtracts: the maximum of -∞ and the fold of max over the masked scores of the row. -/
theorem v18_at (b : Fin 4) (r : Fin 4096) :
    val_main_v18 (F := Ideal) X Wk Wq (ix2 b r)
      = max ⊥ ((Finset.univ : Finset (Fin 4096)).fold max ⊥ (fun k => val_main_v15 (F := Ideal) X Wk Wq (ix3 b r k))) := by
  rw [val_main_v18_apply, val_main_v17_apply, val_main_cst_2_apply, Ideal.ofBits_def, Consts.ofBits_neg_inf,
    Ideal.maximumf_def]
  unfold val_main_v16
  rw [rowmax_read]

/-- The maximum broadcast back over the key axis. -/
theorem v20_at (b : Fin 4) (r k : Fin 4096) :
    val_main_v20 (F := Ideal) X Wk Wq (ix3 b r k) = val_main_v18 (F := Ideal) X Wk Wq (ix2 b r) := by
  rw [val_main_v20_apply, val_main_v19_apply]
  exact congrArg _ (funext fun a => Fin.ext (by match a with | ⟨0, _⟩ => rfl | ⟨1, _⟩ => rfl))

/-- The exponential of the masked score less the row maximum. -/
theorem v22_at (b : Fin 4) (r k : Fin 4096) :
    val_main_v22 (F := Ideal) X Wk Wq (ix3 b r k)
      = Ideal.exp (val_main_v15 (F := Ideal) X Wk Wq (ix3 b r k)
          - max ⊥ ((Finset.univ : Finset (Fin 4096)).fold max ⊥ (fun k' => val_main_v15 (F := Ideal) X Wk Wq (ix3 b r k')))) := by
  rw [val_main_v22_apply, val_main_v21_apply, Ideal.hostUnary_exp_def, Ideal.subf_def, v20_at, v18_at]

/-- The row sum of the exponentials, from 0, broadcast back over the key axis. -/
theorem v25_at (b : Fin 4) (r k : Fin 4096) :
    val_main_v25 (F := Ideal) X Wk Wq (ix3 b r k)
      = 0 + ∑ k' : Fin 4096, val_main_v22 (F := Ideal) X Wk Wq (ix3 b r k') := by
  rw [val_main_v25_apply, val_main_v24_apply, val_main_v23_apply, val_main_cst_3_apply, Ideal.ofBits_def,
    Consts.ofBits_zero]
  refine congrArg (0 + ·) (Finset.sum_congr rfl fun k' _ => congrArg _ ?_)
  exact funext fun a => Fin.ext (by match a with | ⟨0, _⟩ => rfl | ⟨1, _⟩ => rfl | ⟨2, _⟩ => rfl)

/-- The softmax weight. -/
theorem v26_at (b : Fin 4) (r k : Fin 4096) :
    val_main_v26 (F := Ideal) X Wk Wq (ix3 b r k)
      = Ideal.div (val_main_v22 (F := Ideal) X Wk Wq (ix3 b r k))
          (0 + ∑ k' : Fin 4096, val_main_v22 (F := Ideal) X Wk Wq (ix3 b r k')) := by
  rw [val_main_v26_apply, Ideal.hostDivf_def, v25_at]

/-- The output: the weights against the value column. -/
theorem v27_at (b : Fin 4) (r : Fin 4096) (h : Fin 64) :
    val_main_v27 (F := Ideal) X Wk Wq Wv (ix3 b r h)
      = ∑ k : Fin 4096, val_main_v26 (F := Ideal) X Wk Wq (ix3 b r k) * val_main_v2 (F := Ideal) X Wv (ix3 b k h) := by
  rw [val_main_v27_apply]
  refine Finset.sum_congr rfl fun k _ => ?_
  have el : lidx_main_v27 (ix3 b r h) k = ix3 b r k :=
    funext fun a => Fin.ext (by match a with | ⟨0, _⟩ => rfl | ⟨1, _⟩ => rfl | ⟨2, _⟩ => rfl)
  have er : ridx_main_v27 (ix3 b r h) k = ix3 b k h :=
    funext fun a => Fin.ext (by match a with | ⟨0, _⟩ => rfl | ⟨1, _⟩ => rfl | ⟨2, _⟩ => rfl)
  rw [el, er]

/-- A function extended by zero, read inside its domain. -/
theorem ext_val {n : ℕ} (f : Fin n → ℝ) (j : Fin n) : ext f j.val = f j := by
  unfold ext
  rw [dif_pos j.isLt]

/-- With real inputs the reference's attention output is causal attention of the three projections
    (the reference's arguments are x, Wk, Wq, Wv in this order). -/
theorem ref_out (x : Fin 4 → Fin 4096 → Fin 1024 → ℝ) (wk wq wv : Fin 1024 → Fin 64 → ℝ)
    (X : (⟨S4x4096x1024, .f32⟩ : BufTy).Contents (Elt Ideal)) (Wk Wq Wv : (⟨S1024x64, .f32⟩ : BufTy).Contents (Elt Ideal))
    (hX : ∀ i : S4x4096x1024.Idx, X i = ((x (i 0) (i 1) (i 2) : ℝ) : EReal))
    (hk : ∀ i : S1024x64.Idx, Wk i = ((wk (i 0) (i 1) : ℝ) : EReal))
    (hq : ∀ i : S1024x64.Idx, Wq i = ((wq (i 0) (i 1) : ℝ) : EReal))
    (hv : ∀ i : S1024x64.Idx, Wv i = ((wv (i 0) (i 1) : ℝ) : EReal)) :
    Read.val_main_v27 (F := Ideal) X Wk Wq Wv = outSpec x wq wk wv := by
  funext i
  obtain ⟨b, r, h, rfl⟩ : ∃ (b : Fin 4) (r : Fin 4096) (h : Fin 64), i = ix3 b r h := ⟨i 0, i 1, i 2, eq_ix3 i⟩
  show _ = ((attn1 (proj1 (x b) wq) (proj1 (x b) wk) (proj1 (x b) wv) r h : ℝ) : EReal)
  rw [v27_at]
  simp only [v26_at, v22_at]
  unfold attn1
  exact softmax_row 4096 r.val r.isLt (score1 (proj1 (x b) wq) (proj1 (x b) wk) r) (ext fun j' => proj1 (x b) wv j' h)
    (fun k => val_main_v15 (F := Ideal) X Wk Wq (ix3 b r k)) (fun k => val_main_v2 (F := Ideal) X Wv (ix3 b k h))
    (fun j => v15_real x wk wq X Wk Wq hX hk hq b r j)
    (fun j => by rw [ref_v, proj_real x wv X Wv hX hv, ext_val (fun j' => proj1 (x b) wv j' h) j])

end Cert.ReferenceIdeal.RefValue

end
-- ==== Proof.Finite.lean ====
/-
  What the precondition says: every entry of the four float inputs is a real number (neither infinity), because its
  absolute value is below plus infinity.
-/
import proofs.«410186_j39256001085546_3_alg».proof.Pre_finite_inputs
import proofs.«410186_j39256001085546_3_alg».proof.Proof.Consts
import Idealize.ShloMosaic.PureOps.Ideal
import Idealize.ShloMosaic.Lib.ReduceAll
import Idealize.ShloMosaic.Lib.ValueIdx

noncomputable section

namespace Cert.Finite

open Idealize.ShloMosaic

variable [Cert.Pre_finite_inputs.Facts]

/-- A rank-0 shape has exactly one index. -/
instance : Subsingleton Cert.Pre_finite_inputs.S_.Idx := ⟨fun a b => funext fun d => d.elim0⟩

/-- A decided proposition whose truth bit is 1 holds. -/
private theorem of_ofBool_decide {p : Prop} [Decidable p] (e : BitVec.ofBool (decide p) = 1#1) : p := by
  by_contra hn
  rw [decide_eq_false hn] at e
  exact absurd e (by decide)

/-- An extended real whose absolute value max x (-x) is below +∞ is a real: at -∞ and at +∞ the absolute value is +∞. -/
private theorem real_of_abs_lt (x : EReal)
    (e : Ideal.cmp .olt (max x (-x)) (Ideal.ofBits .f32 0x7F800000#32) = 1#1) : ∃ r : ℝ, x = (r : EReal) := by
  rw [Cert.Consts.ofBits_pos_inf] at e
  have hlt : max x (-x) < ⊤ := of_ofBool_decide e
  induction x using EReal.rec with
  | bot => simp at hlt
  | coe r => exact ⟨r, rfl⟩
  | top => simp at hlt

/-- If the precondition's predicate is all ones on four arrays of extended reals, every entry of each is a real. -/
theorem reals_of_pre (a0 : FVec Ideal Cert.Pre_finite_inputs.S4x4096x1024 .f32)
    (a1 a2 a3 : FVec Ideal Cert.Pre_finite_inputs.S1024x64 .f32)
    (h : Cert.Pre_finite_inputs.fn (F := Ideal) a0 a1 a2 a3 = fun _ => 1#1) :
    (∀ i, ∃ r : ℝ, a0 i = (r : EReal)) ∧ (∀ i, ∃ r : ℝ, a1 i = (r : EReal))
      ∧ (∀ i, ∃ r : ℝ, a2 i = (r : EReal)) ∧ (∀ i, ∃ r : ℝ, a3 i = (r : EReal)) := by
  -- the predicate at its one index: the conjunction of the four "all entries have |x| < +∞"
  have h0 := congrFun h ValueIdx.ix0
  dsimp only [Cert.Pre_finite_inputs.fn, Cert.Pre_finite_inputs.fn_part1] at h0
  change IntOp.andi (IntOp.andi (IntOp.andi _ _) _) _ = 1#1 at h0
  rw [IntOp.andi_eq_one, IntOp.andi_eq_one, IntOp.andi_eq_one] at h0
  obtain ⟨⟨⟨e0, e1⟩, e2⟩, e3⟩ := h0
  -- each conjunct is an "and" over all entries, so every entry's comparison is 1, and that entry is a real
  exact ⟨fun i => real_of_abs_lt (a0 i) (Host.reduce_andi_all _ _ _ _ _ e0 i),
    fun i => real_of_abs_lt (a1 i) (Host.reduce_andi_all _ _ _ _ _ e1 i),
    fun i => real_of_abs_lt (a2 i) (Host.reduce_andi_all _ _ _ _ _ e2 i),
    fun i => real_of_abs_lt (a3 i) (Host.reduce_andi_all _ _ _ _ _ e3 i)⟩

end Cert.Finite

end
-- ==== Proof.lean ====
/-
  Fused causal self-attention (query, key and value projections, then a tiled online softmax) against the plain
  reference (three projections, masked softmax over all 4096 keys, product with the values), over the extended reals.

  Keys and values: both programs compute the projections x · Wk and x · Wv as exact sums; they agree entry by entry with
  no condition on the inputs.

  Attention output: with finite inputs every projection entry and every score is a real number. The reference subtracts the
  row maximum M, exponentiates (a masked score -∞ gives 0), divides by the row sum and multiplies by the values. The
  kernel walks each tile of 512 query rows over the blocks of 512 keys up to the diagonal, keeping a running maximum m, a
  running normaliser l and a running weighted sum acc, rescaling l and acc by exp (m_old - m_new) at each block, masking the
  diagonal block, and stores acc / l. Both are the softmax-weighted mean of the value rows of the keys j ≤ r with weights
  exp ((q_r · k_j) / 8): subtracting any one real constant from all the scores of a row changes neither quotient, so neither
  maximum appears in the common closed form; the kernel's scale 1/8 is the reference's division by √64.

  The named constant: the kernel's mask value, a large negative float, stands for -∞; at the extended reals it is the
  bottom element, the value the reference's mask computes with.
-/
import proofs.«410186_j39256001085546_3_alg».proof.Defs
import proofs.«410186_j39256001085546_3_alg».proof.Proof.Gen.Kernel
import proofs.«410186_j39256001085546_3_alg».proof.Proof.Gen.Kernel.Skeleton
import proofs.«410186_j39256001085546_3_alg».proof.Proof.Gen.Kernel.Launch
import proofs.«410186_j39256001085546_3_alg».proof.Proof.Gen.Kernel.Points
import proofs.«410186_j39256001085546_3_alg».proof.Proof.Gen.Kernel.Frame
import proofs.«410186_j39256001085546_3_alg».proof.Proof.Gen.KernelIdeal
import proofs.«410186_j39256001085546_3_alg».proof.Proof.Gen.KernelIdeal.Skeleton
import proofs.«410186_j39256001085546_3_alg».proof.Proof.Gen.KernelIdeal.Launch
import proofs.«410186_j39256001085546_3_alg».proof.Proof.Gen.KernelIdeal.Points
import proofs.«410186_j39256001085546_3_alg».proof.Proof.Gen.KernelIdeal.Frame
import proofs.«410186_j39256001085546_3_alg».proof.Proof.Gen.ReferenceIdeal
import proofs.«410186_j39256001085546_3_alg».proof.Proof.Gen.Pre_finite_inputs
import proofs.«410186_j39256001085546_3_alg».proof.Proof.Gen.KernelIdeal.Value
import proofs.«410186_j39256001085546_3_alg».proof.Proof.Gen.ReferenceIdeal.Run
import proofs.«410186_j39256001085546_3_alg».proof.Proof.Gen.ReferenceIdeal.Read
import proofs.«410186_j39256001085546_3_alg».proof.Proof.AttnOut
import proofs.«410186_j39256001085546_3_alg».proof.Proof.KVOut
import proofs.«410186_j39256001085546_3_alg».proof.Proof.RefValue
import proofs.«410186_j39256001085546_3_alg».proof.Proof.Finite
import Idealize.ShloMosaic.Adequacy
import Idealize.ShloMosaic.Init

noncomputable section

namespace Cert.Proof

open Idealize.ShloMosaic Idealize.ShloMosaic.TcCoe Idealize.ShloMosaic.ValueIdx Idealize.SL.Sem Cert.AttnSpec

/-- The three frames: the two kernels' are generated whole; the reference's is its run with the results dropped. -/
theorem frame_k : Cert.frame_Kernel (hKernel := Cert.Kernel.Gen.facts) (hPre_finite_inputs := Cert.Pre_finite_inputs.Gen.facts) :=
  fun m ρ _ => Cert.Kernel.Gen.frame m ρ
theorem frame_ki : Cert.frame_KernelIdeal (hKernelIdeal := Cert.KernelIdeal.Gen.facts) (hPre_finite_inputs := Cert.Pre_finite_inputs.Gen.facts) :=
  fun m ρ _ => Cert.KernelIdeal.Gen.frame m ρ
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2)
    (Cert.ReferenceIdeal.Value.run (F := Ideal) m ρ)

/-- The ledger's eight entries are one statement: the table gives the mask constant the value -∞. -/
theorem neg_big : IdealRules.named_const.Statement Cert.KernelIdeal.κ "neg_big" .f32 0xF149F2CA#32 ⊥ :=
  IdealRules.named_const.statement Cert.KernelIdeal.κ "neg_big" .f32 0xF149F2CA#32 ⊥ rfl

theorem preserves : Cert.preserves_Kernel_KernelIdeal :=
  ⟨neg_big, neg_big, neg_big, neg_big, neg_big, neg_big, neg_big, neg_big⟩

/-- Both programs, from memories agreeing on finite arguments, end with the same three arrays: causal attention of the
    real projections, and the two projections themselves. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hfin := fun c : Dev Cert.KernelIdeal.nD => Cert.Finite.reals_of_pre _ _ _ _ (hpre c)
  choose f0 h0 using fun c => (hfin c).1
  choose f1 h1 using fun c => (hfin c).2.1
  choose f2 h2 using fun c => (hfin c).2.2.1
  choose f3 h3 using fun c => (hfin c).2.2.2
  have ha : ∀ c : Dev Cert.KernelIdeal.nD, Cert.KernelIdeal.AttnValue.RealArgs m
      (fun b R cc => f0 c (ix3 b R cc)) (fun cc h => f1 c (ix2 cc h)) (fun cc h => f2 c (ix2 cc h))
      (fun cc h => f3 c (ix2 cc h)) c :=
    fun c => ⟨fun b R cc => h0 c _, fun cc h => h1 c _, fun cc h => h2 c _, fun cc h => h3 c _⟩
  refine ⟨fun c => outSpec (fun b R cc => f0 c (ix3 b R cc)) (fun cc h => f2 c (ix2 cc h)) (fun cc h => f1 c (ix2 cc h))
      (fun cc h => f3 c (ix2 cc h)),
    fun c => projSpec (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    fun c => projSpec (m ((c.tc : Thread Cert.KernelIdeal.nD Cert.KernelIdeal.τ).loc Cert.KernelIdeal.main_arg0))
      (m ((c.tc : Thread Cert.KernelIdeal.nD Cert.KernelIdeal.τ).loc Cert.KernelIdeal.main_arg3)), ?_, ?_⟩
  · exact (θ_run Cert.KernelIdeal.defs _ _).mono (fun r h c =>
      ⟨(h c).1.trans (Cert.KernelIdeal.AttnValue.final4 (ha c)),
        (h c).2.1.trans (Cert.KernelIdeal.AttnValue.final5 m c),
        (h c).2.2.1.trans (Cert.KernelIdeal.AttnValue.final6 m c), (h c).2.2.2⟩)
      (Cert.KernelIdeal.Value.run_blocks m ρ)
  · refine (θ_run Cert.ReferenceIdeal.defs _ _).mono (fun r h c => ⟨?_, ?_, ?_, (h c).2.2.2⟩)
      (Cert.ReferenceIdeal.Value.run (F := Ideal) m' ρ')
    · rw [(h c).1, Cert.ReferenceIdeal.Read.val_main_v27_eq, (hagree c).1, (hagree c).2.1, (hagree c).2.2.1, (hagree c).2.2.2]
      exact Cert.ReferenceIdeal.RefValue.ref_out _ _ _ _ _ _ _ _
        (fun i => (h0 c i).trans (congrArg (fun j => ((f0 c j : ℝ) : EReal)) (eq_ix3 i)))
        (fun i => (h1 c i).trans (congrArg (fun j => ((f1 c j : ℝ) : EReal)) (eq_ix2 i)))
        (fun i => (h2 c i).trans (congrArg (fun j => ((f2 c j : ℝ) : EReal)) (eq_ix2 i)))
        (fun i => (h3 c i).trans (congrArg (fun j => ((f3 c j : ℝ) : EReal)) (eq_ix2 i)))
    · rw [(h c).2.1, Cert.ReferenceIdeal.Read.val_main_v0_eq, (hagree c).1, (hagree c).2.1]
      exact Cert.ReferenceIdeal.RefValue.ref_k _ _
    · rw [(h c).2.2.1, Cert.ReferenceIdeal.Read.val_main_v2_eq, (hagree c).1, (hagree c).2.2.2]
      exact Cert.ReferenceIdeal.RefValue.ref_v _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
